-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S10000x128 : Shape := ⟨2, ![10000, 128]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x1 : Shape := ⟨2, ![50000, 1]⟩
abbrev S10000x1 : Shape := ⟨2, ![10000, 1]⟩
abbrev S128x1 : Shape := ⟨2, ![128, 1]⟩
abbrev S1x64 : Shape := ⟨2, ![1, 64]⟩

abbrev nBuf : Space → Nat
  | .hbm => 202
  | .vmem => 21
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S50000x128, .f32⟩
  | 16 => ⟨S50000, .i32⟩
  | 17 => ⟨S1650000, .i32⟩
  | 18 => ⟨S1650000, .i32⟩
  | 19 => ⟨S_, .f32⟩
  | 20 => ⟨S1650000, .f32⟩
  | 21 => ⟨S_, .f32⟩
  | 22 => ⟨S50000, .f32⟩
  | 23 => ⟨S1650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000, .i32⟩
  | 76 => ⟨S1650000, .i32⟩
  | 77 => ⟨S1650000, .i32⟩
  | 78 => ⟨S_, .f32⟩
  | 79 => ⟨S1650000, .f32⟩
  | 80 => ⟨S_, .f32⟩
  | 81 => ⟨S50000, .f32⟩
  | 82 => ⟨S1650000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S1650000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x128, .f32⟩
  | 120 => ⟨S1650000x1, .f32⟩
  | 121 => ⟨S1650000x128, .f32⟩
  | 122 => ⟨S1650000x128, .f32⟩
  | 123 => ⟨S_, .f32⟩
  | 124 => ⟨S50000x128, .f32⟩
  | 125 => ⟨S1650000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000, .i32⟩
  | 7 => ⟨S1650000, .i32⟩
  | 8 => ⟨S1650000, .i32⟩
  | 9 => ⟨S_, .f32⟩
  | 10 => ⟨S1650000, .f32⟩
  | 11 => ⟨S_, .f32⟩
  | 12 => ⟨S50000, .f32⟩
  | 13 => ⟨S1650000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S1650000, .i32⟩
  | 25 => ⟨S1650000, .i1⟩
  | 26 => ⟨S_, .i32⟩
  | 27 => ⟨S1650000, .i32⟩
  | 28 => ⟨S1650000, .i32⟩
  | 29 => ⟨S1650000, .i32⟩
  | 30 => ⟨S1650000x1, .i32⟩
  | 31 => ⟨S1650000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000x128, .f32⟩
  | 51 => ⟨S1650000x1, .f32⟩
  | 52 => ⟨S1650000x128, .f32⟩
  | 53 => ⟨S1650000x128, .f32⟩
  | 54 => ⟨S_, .f32⟩
  | 55 => ⟨S50000x128, .f32⟩
  | 56 => ⟨S1650000x1, .i32⟩
  | 57 => ⟨S50000x128, .f32⟩
  | 58 => ⟨S1x128, .f32⟩
  | 59 => ⟨S50000x128, .f32⟩
  | 60 => ⟨S50000x128, .f32⟩
  | 61 => ⟨S50000x1, .i32⟩
  | 62 => ⟨S128x128, .f32⟩
  | 63 => ⟨S1x128, .f32⟩
  | 64 => ⟨S_, .f32⟩
  | 65 => ⟨S1x128, .f32⟩
  | 66 => ⟨S1x128, .f32⟩
  | 67 => ⟨S128x1, .f32⟩
  | 68 => ⟨S128x128, .f32⟩
  | 69 => ⟨S128x128, .f32⟩
  | 70 => ⟨S128x64, .f32⟩
  | 71 => ⟨S1x64, .f32⟩
  | 72 => ⟨S128x64, .f32⟩
  | 73 => ⟨S128x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .i32⟩
  | .local _ .vmem, ⟨18, _⟩ => ⟨S10000x1, .i32⟩
  | .local _ .vmem, ⟨19, _⟩ => ⟨S128x128, .f32⟩
  | .local _ .vmem, ⟨20, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_22 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_24 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_25 : Ref sig .tc := ⟨.hbm, 147, rfl⟩
abbrev main_call2_v0 : Ref sig .tc := ⟨.hbm, 148, rfl⟩
abbrev main_call2_v1 : Ref sig .tc := ⟨.hbm, 149, rfl⟩
abbrev main_v105 : Ref sig .tc := ⟨.hbm, 150, rfl⟩
abbrev main_c_26 : Ref sig .tc := ⟨.hbm, 151, rfl⟩
abbrev main_v106 : Ref sig .tc := ⟨.hbm, 152, rfl⟩
abbrev main_v107 : Ref sig .tc := ⟨.hbm, 153, rfl⟩
abbrev main_c_27 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_28 : Ref sig .tc := ⟨.hbm, 160, rfl⟩
abbrev main_v113 : Ref sig .tc := ⟨.hbm, 161, rfl⟩
abbrev main_v114 : Ref sig .tc := ⟨.hbm, 162, rfl⟩
abbrev main_c_29 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_30 : Ref sig .tc := ⟨.hbm, 170, rfl⟩
abbrev main_v121 : Ref sig .tc := ⟨.hbm, 171, rfl⟩
abbrev main_v122 : Ref sig .tc := ⟨.hbm, 172, rfl⟩
abbrev main_c_31 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_32 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138_0 : Ref sig .tc := ⟨.hbm, 190, rfl⟩
abbrev main_v138_1 : Ref sig .tc := ⟨.hbm, 191, rfl⟩
abbrev main_cst_33 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  shapeCasts_S50000_S50000x1 : S50000.ShapeCasts S50000x1
  inb_S1x128_S1x128_0_0 : ∀ a, (![0, 0] : Fin 2 → Nat) a + S1x128.size a ≤ S1x128.size a
  h_S1x128 : 0 < S1x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  shapeCasts_S128x128_S128x128 : S128x128.ShapeCasts S128x128
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  shapeCasts_S1x128_S128x1 : S1x128.ShapeCasts S128x1
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  dot_S10000x128_S128x128_S10000x128_1_0_0_1_n_n_wf : DotDims.WF S10000x128 S128x128 S10000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S10000x128_S10000x128_S128x128_0_0_1_1_n_n_wf : DotDims.WF S10000x128 S10000x128 S128x128 [0] [0] [1] [1] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .i32 = 32 ∨ (Rect.block (s := S50000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v136) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v137) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v138_0) S128x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v138_1) S1x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x1 : Shape := ⟨2, ![50000, 1]⟩
abbrev S128x1 : Shape := ⟨2, ![128, 1]⟩
abbrev S1x64 : Shape := ⟨2, ![1, 64]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S50000x128, .f32⟩
  | 16 => ⟨S50000, .i32⟩
  | 17 => ⟨S1650000, .i32⟩
  | 18 => ⟨S1650000, .i32⟩
  | 19 => ⟨S_, .f32⟩
  | 20 => ⟨S1650000, .f32⟩
  | 21 => ⟨S_, .f32⟩
  | 22 => ⟨S50000, .f32⟩
  | 23 => ⟨S1650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000, .i32⟩
  | 76 => ⟨S1650000, .i32⟩
  | 77 => ⟨S1650000, .i32⟩
  | 78 => ⟨S_, .f32⟩
  | 79 => ⟨S1650000, .f32⟩
  | 80 => ⟨S_, .f32⟩
  | 81 => ⟨S50000, .f32⟩
  | 82 => ⟨S1650000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S1650000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x128, .f32⟩
  | 120 => ⟨S1650000x1, .f32⟩
  | 121 => ⟨S1650000x128, .f32⟩
  | 122 => ⟨S1650000x128, .f32⟩
  | 123 => ⟨S_, .f32⟩
  | 124 => ⟨S50000x128, .f32⟩
  | 125 => ⟨S1650000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000, .i32⟩
  | 7 => ⟨S1650000, .i32⟩
  | 8 => ⟨S1650000, .i32⟩
  | 9 => ⟨S_, .f32⟩
  | 10 => ⟨S1650000, .f32⟩
  | 11 => ⟨S_, .f32⟩
  | 12 => ⟨S50000, .f32⟩
  | 13 => ⟨S1650000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S1650000, .i32⟩
  | 25 => ⟨S1650000, .i1⟩
  | 26 => ⟨S_, .i32⟩
  | 27 => ⟨S1650000, .i32⟩
  | 28 => ⟨S1650000, .i32⟩
  | 29 => ⟨S1650000, .i32⟩
  | 30 => ⟨S1650000x1, .i32⟩
  | 31 => ⟨S1650000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000x128, .f32⟩
  | 51 => ⟨S1650000x1, .f32⟩
  | 52 => ⟨S1650000x128, .f32⟩
  | 53 => ⟨S1650000x128, .f32⟩
  | 54 => ⟨S_, .f32⟩
  | 55 => ⟨S50000x128, .f32⟩
  | 56 => ⟨S1650000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S128x128, .f32⟩
  | 63 => ⟨S50000x1, .i32⟩
  | 64 => ⟨S128x128, .f32⟩
  | 65 => ⟨S_, .f32⟩
  | 66 => ⟨S50000, .f32⟩
  | 67 => ⟨S_, .f32⟩
  | 68 => ⟨S128, .f32⟩
  | 69 => ⟨S50000x1, .i32⟩
  | 70 => ⟨S128, .f32⟩
  | 71 => ⟨S_, .f32⟩
  | 72 => ⟨S128, .f32⟩
  | 73 => ⟨S128, .f32⟩
  | 74 => ⟨S128x1, .f32⟩
  | 75 => ⟨S128x128, .f32⟩
  | 76 => ⟨S128x128, .f32⟩
  | 77 => ⟨S128x64, .f32⟩
  | 78 => ⟨S1x64, .f32⟩
  | 79 => ⟨S128x64, .f32⟩
  | 80 => ⟨S128x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_32 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x64_S128x64_1_0_0_1_n_n_wf : DotDims.WF S128x128 S128x64 S128x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

class Facts : Prop extends Facts₀ where

variable [Facts]
-- ==== Proof.Layer.lean ====
import proofs.«419874_j88905823027257_1_alg».proof.Proof.Gen.KernelIdeal.Frame
import Idealize.ShloMosaic.Lib.StableHlo.Run

/-!
  The host side of one graph-convolution layer, as functions of what it is given.

  With `N = 50000` nodes and `E = 1600000` edges, a layer takes the transformed features `hw : [N, 128]`, the edge
  sources and targets `src, dst : [E]` and a bias `b : [128]`. It appends the `N` self-loops to both endpoint lists
  (`ends`), counts the in-degree of every node over the extended target list (`deg`: a sum of ones scattered by target),
  takes `dinv = deg^(-1/2)` where the degree is positive and `0` elsewhere, and returns, for every node `v`,
  `b + ∑_{e : d e = v} dinv (s e) · dinv (d e) · hw (s e)` (`conv`: a gather of rows at the sources, a scale per edge, a
  scatter-add by target). An endpoint below zero is counted from the end of the node range once (`wrap`) where it is used
  as a gather index; as a scatter index it is used as it is. `relu x = max x 0`.
-/

set_option maxRecDepth 16384

noncomputable section

namespace Cert.KernelIdeal.Layer

open Cert.KernelIdeal Cert.KernelIdeal.Gen
open Idealize.ShloMosaic Idealize.ShloMosaic.TcCoe Idealize.SL.Sem Idealize.ShloMosaic.StableHlo

variable {F : FTy → Type} [FloatOps F]

/-- An endpoint list followed by the self-loops `0, 1, …, N - 1`. -/
def ends (e : IVec S1600000 32) : IVec S1650000 32 :=
  concatenate S1650000 0 [⟨S1600000, e⟩, ⟨S50000, iotaInDim S50000 32 0⟩] concatenates_S1600000_S50000_S1650000_d0

/-- An index below zero is counted from the end of the `N` nodes (once); any other is kept. -/
def wrap (x : IVec S1650000 32) : IVec S1650000 32 :=
  select (cmpi .slt x (broadcastInDim S1650000 ![] bcast_S_S1650000 (constantI S_ 32 0#32)))
    (addi x (broadcastInDim S1650000 ![] bcast_S_S1650000 (constantI S_ 32 50000#32))) x

/-- A list of indices as a column. -/
def col (x : IVec S1650000 32) : IVec S1650000x1 32 := broadcastInDim S1650000x1 ![0] bcast_S1650000_S1650000x1_0 x

/-- The in-degree of every node: ones scattered by target and added. -/
def deg (d : IVec S1650000 32) : FVec F S50000 .f32 :=
  Host.scatterAdd scatter_S50000_S1650000x1_S1650000_n_0_0_1
    (broadcastInDim S50000 ![] bcast_S_S50000 (constant S_ .f32 0x00000000#32)) (col d)
    (broadcastInDim S1650000 ![] bcast_S_S1650000 (constant S_ .f32 0x3F800000#32))

/-- `deg^(-1/2)` where the degree is positive, `0` elsewhere. -/
def dinv (d : IVec S1650000 32) : FVec F S50000 .f32 :=
  select (cmpf (F := F) .ogt (deg d) (broadcastInDim S50000 ![] bcast_S_S50000 (constant S_ .f32 0x00000000#32)))
    (Host.rsqrt (deg d))
    (broadcastInDim S50000 ![] bcast_S_S50000 (id (constant S_ .f32 0x00000000#32)))

/-- The aggregation of one layer: rows gathered at the sources, scaled per edge by `dinv s · dinv d`, added up by
    target, plus the bias on every row. -/
def conv (hw : FVec F S50000x128 .f32) (s d : IVec S1650000 32) (b : FVec F S128 .f32) : FVec F S50000x128 .f32 :=
  addf
    (Host.scatterAdd scatter_S50000x128_S1650000x1_S1650000x128_1_0_0_1
      (broadcastInDim S50000x128 ![] bcast_S_S50000x128 (constant S_ .f32 0x00000000#32)) (col d)
      (mulf (Host.gather gather_S50000x128_S1650000x1_S1650000x128_1_0_n_n_0_1_1128 hw (col (wrap s)))
        (broadcastInDim S1650000x128 ![0, 1] bcast_S1650000x1_S1650000x128_0_1
          (broadcastInDim S1650000x1 ![0] bcast_S1650000_S1650000x1_0
            (mulf (Host.gather gather_S50000_S1650000x1_S1650000_n_0_n_n_0_1_1 (dinv d) (col (wrap s)))
              (Host.gather gather_S50000_S1650000x1_S1650000_n_0_n_n_0_1_1 (dinv d) (col (wrap d))))))))
    (broadcastInDim S50000x128 ![0, 1] bcast_S1x128_S50000x128_0_1 (broadcastInDim S1x128 ![1] bcast_S128_S1x128_1 b))

/-- `max x 0`, entry by entry. -/
def relu (x : FVec F S50000x128 .f32) : FVec F S50000x128 .f32 :=
  maximumf x (broadcastInDim S50000x128 ![] bcast_S_S50000x128 (constant S_ .f32 0x00000000#32))

variable (m : (ℓ : Loc nD τ sig) → Buf (Elt F) ℓ) (ρ : Dev nD → PrngReg)

set_option maxHeartbeats 8000000 in
/-- Between the first and the second matrix product the program applies one layer and `relu` to the first product. -/
theorem layer1 (c : Dev nD) :
    W5 m ρ c (Proc.devRef .tc main_v48)
      = relu (conv (W2 m ρ c (Proc.devRef .tc main_v4)) (ends (W2 m ρ c (Proc.devRef .tc main_v1)))
          (ends (W2 m ρ c (Proc.devRef .tc main_v3))) (W2 m ρ c (Proc.devRef .tc main_arg4))) := by
  show StableHlo.after hostOps1_2 (StableHlo.after hostOps1_1 (StableHlo.after hostOps1 (W2 m ρ c))) (Proc.devRef .tc main_v48) = _
  generalize W2 m ρ c = Wv
  after_results_simp
  simp only [TRef.ofBuf, TRef.toBuf, cast_eq]
  rfl

set_option maxHeartbeats 8000000 in
/-- Between the second and the third matrix product the program applies one layer and \`relu\` to the second product. -/
theorem layer2 (c : Dev nD) :
    W9 m ρ c (Proc.devRef .tc main_v93)
      = relu (conv (W6 m ρ c (Proc.devRef .tc main_v49)) (ends (W6 m ρ c (Proc.devRef .tc main_v1)))
          (ends (W6 m ρ c (Proc.devRef .tc main_v3))) (W6 m ρ c (Proc.devRef .tc main_arg6))) := by
  show StableHlo.after hostOps2_2 (StableHlo.after hostOps2_1 (StableHlo.after hostOps2 (W6 m ρ c))) (Proc.devRef .tc main_v93) = _
  generalize W6 m ρ c = Wv
  after_results_simp
  simp only [TRef.ofBuf, TRef.toBuf, cast_eq]
  rfl

set_option maxHeartbeats 8000000 in
/-- After the third matrix product the program applies one layer to it, with no \`relu\`. -/
theorem layer3 (c : Dev nD) :
    W13 m ρ c (Proc.devRef .tc main_v136)
      = conv (W10 m ρ c (Proc.devRef .tc main_v94)) (ends (W10 m ρ c (Proc.devRef .tc main_v1)))
          (ends (W10 m ρ c (Proc.devRef .tc main_v3))) (W10 m ρ c (Proc.devRef .tc main_arg8)) := by
  show StableHlo.after hostOps3_2 (StableHlo.after hostOps3_1 (StableHlo.after hostOps3 (W10 m ρ c))) (Proc.devRef .tc main_v136) = _
  generalize W10 m ρ c = Wv
  after_results_simp
  simp only [TRef.ofBuf, TRef.toBuf, cast_eq]
  rfl

/-- The graph ids as a column `[N, 1]`, the form the pooling kernel reads them in. -/
def idcol (batch : IVec S50000 32) : IVec S50000x1 32 := shapeCast S50000x1 batch shapeCasts_S50000_S50000x1

set_option maxHeartbeats 8000000 in
/-- The same stretch also lays the graph ids out as a column. -/
theorem ids3 (c : Dev nD) :
    W13 m ρ c (Proc.devRef .tc main_v137) = idcol (W10 m ρ c (Proc.devRef .tc main_arg2)) := by
  show StableHlo.after hostOps3_2 (StableHlo.after hostOps3_1 (StableHlo.after hostOps3 (W10 m ρ c))) (Proc.devRef .tc main_v137) = _
  generalize W10 m ρ c = Wv
  after_results_simp
  rfl

/-- From the per-graph sums `[G, 128]` and counts `[1, G]` to the result: each graph's sum divided by `max count 1`
    (the counts turned into a column and spread along the row), times `Wlin`, plus `blin` on every row. -/
def pooled (sums : FVec F S128x128 .f32) (cnts : FVec F S1x128 .f32) (Wl : FVec F S128x64 .f32) (bl : FVec F S64 .f32) :
    FVec F S128x64 .f32 :=
  addf
    (Host.dotGeneral dot_S128x128_S128x64_S128x64_1_0_0_1_n_n none
      (Host.divf sums
        (broadcastInDim S128x128 ![0, 1] bcast_S128x1_S128x128_0_1
          (shapeCast S128x1 (maximumf cnts (broadcastInDim S1x128 ![] bcast_S_S1x128 (constant S_ .f32 0x3F800000#32)))
            shapeCasts_S1x128_S128x1)))
      Wl)
    (broadcastInDim S128x64 ![0, 1] bcast_S1x64_S128x64_0_1 (broadcastInDim S1x64 ![1] bcast_S64_S1x64_1 bl))

set_option maxHeartbeats 8000000 in
/-- After the pooling kernel the program computes `pooled` of its two results. -/
theorem tail (c : Dev nD) :
    W15 m ρ c (Proc.devRef .tc main_v147)
      = pooled (W14 m ρ c (Proc.devRef .tc main_v138_0)) (W14 m ρ c (Proc.devRef .tc main_v138_1))
          (W14 m ρ c (Proc.devRef .tc main_arg9)) (W14 m ρ c (Proc.devRef .tc main_arg10)) := by
  show StableHlo.after hostOps4 (W14 m ρ c) (Proc.devRef .tc main_v147) = _
  generalize W14 m ρ c = Wv
  after_results_simp
  rfl

end Cert.KernelIdeal.Layer

end
-- ==== Proof.Walk.lean ====
import proofs.«419874_j88905823027257_1_alg».proof.Proof.Gen.KernelIdeal.Frame
import proofs.«419874_j88905823027257_1_alg».proof.Proof.Layer
import Idealize.ShloMosaic.Lib.StableHlo.Run

/-!
  Reading a buffer back through the program. Between the launch and the return the buffers' contents pass fifteen
  boundaries: eleven stretches of host operations and four kernel regions. A stretch changes only the buffers its
  operations write, a region only the arrays of its windows; every other buffer holds at a boundary what it held at the
  boundary before. So an argument of the program holds its launch contents wherever it is read, and the two endpoint
  lists, cut out of the edge array by the first stretch, hold those rows wherever a layer reads them.
-/

set_option maxRecDepth 16384

noncomputable section

namespace Cert.KernelIdeal.Walk

open Cert.KernelIdeal Cert.KernelIdeal.Gen Cert.KernelIdeal.Layer
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The side condition of a step over a stretch: none of its operations writes the buffer (one inequality of
    references per operation, each decided). -/
local macro "nw" : tactic => `(tactic| (
  refine List.forall_iff_forall_mem.mp ?_
  simp only [hostOps0, hostOps1, hostOps1_1, hostOps1_2, hostOps2, hostOps2_1, hostOps2_2, hostOps3, hostOps3_1, hostOps3_2, hostOps4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One step back per boundary, for any buffer the step does not touch -/

section Steps
variable (c : Dev nD) (b : Ref sig .tc)

theorem back1 (h : ∀ op ∈ (hostOps0 : List (HloOp τ sig (Elt F))), Proc.devRef .tc b ∉ op.writes) :
    W1 m ρ c (Proc.devRef .tc b) = W0 m ρ c (Proc.devRef .tc b) := StableHlo.after_of_forall_not_mem _ _ h
theorem back2 (h : ∀ w, Pipeline.arrRef spec0 w ≠ b) : W2 m ρ c (Proc.devRef .tc b) = W1 m ρ c (Proc.devRef .tc b) :=
  W2_of_ne m ρ c b h
theorem back5 (h0 : ∀ op ∈ (hostOps1 : List (HloOp τ sig (Elt F))), Proc.devRef .tc b ∉ op.writes)
    (h1 : ∀ op ∈ (hostOps1_1 : List (HloOp τ sig (Elt F))), Proc.devRef .tc b ∉ op.writes)
    (h2 : ∀ op ∈ (hostOps1_2 : List (HloOp τ sig (Elt F))), Proc.devRef .tc b ∉ op.writes) :
    W5 m ρ c (Proc.devRef .tc b) = W2 m ρ c (Proc.devRef .tc b) :=
  (StableHlo.after_of_forall_not_mem _ _ h2).trans ((StableHlo.after_of_forall_not_mem _ _ h1).trans (StableHlo.after_of_forall_not_mem _ _ h0))
theorem back6 (h : ∀ w, Pipeline.arrRef spec1 w ≠ b) : W6 m ρ c (Proc.devRef .tc b) = W5 m ρ c (Proc.devRef .tc b) :=
  W6_of_ne m ρ c b h
theorem back9 (h0 : ∀ op ∈ (hostOps2 : List (HloOp τ sig (Elt F))), Proc.devRef .tc b ∉ op.writes)
    (h1 : ∀ op ∈ (hostOps2_1 : List (HloOp τ sig (Elt F))), Proc.devRef .tc b ∉ op.writes)
    (h2 : ∀ op ∈ (hostOps2_2 : List (HloOp τ sig (Elt F))), Proc.devRef .tc b ∉ op.writes) :
    W9 m ρ c (Proc.devRef .tc b) = W6 m ρ c (Proc.devRef .tc b) :=
  (StableHlo.after_of_forall_not_mem _ _ h2).trans ((StableHlo.after_of_forall_not_mem _ _ h1).trans (StableHlo.after_of_forall_not_mem _ _ h0))
theorem back10 (h : ∀ w, Pipeline.arrRef spec2 w ≠ b) : W10 m ρ c (Proc.devRef .tc b) = W9 m ρ c (Proc.devRef .tc b) :=
  W10_of_ne m ρ c b h
theorem back13 (h0 : ∀ op ∈ (hostOps3 : List (HloOp τ sig (Elt F))), Proc.devRef .tc b ∉ op.writes)
    (h1 : ∀ op ∈ (hostOps3_1 : List (HloOp τ sig (Elt F))), Proc.devRef .tc b ∉ op.writes)
    (h2 : ∀ op ∈ (hostOps3_2 : List (HloOp τ sig (Elt F))), Proc.devRef .tc b ∉ op.writes) :
    W13 m ρ c (Proc.devRef .tc b) = W10 m ρ c (Proc.devRef .tc b) :=
  (StableHlo.after_of_forall_not_mem _ _ h2).trans ((StableHlo.after_of_forall_not_mem _ _ h1).trans (StableHlo.after_of_forall_not_mem _ _ h0))
theorem back14 (h : ∀ w, Pipeline.arrRef spec3 w ≠ b) : W14 m ρ c (Proc.devRef .tc b) = W13 m ρ c (Proc.devRef .tc b) :=
  W14_of_ne m ρ c b h

end Steps

/-- Row 0 of the edge array: the sources. -/
def src (ei : IVec S2x1600000 32) : IVec S1600000 32 :=
  shapeCast S1600000 (extractStridedSlice S1x1600000 ![0, 0] ei slices_S2x1600000_S1x1600000_0_0) shapeCasts_S1x1600000_S1600000
/-- Row 1 of the edge array: the targets. -/
def dst (ei : IVec S2x1600000 32) : IVec S1600000 32 :=
  shapeCast S1600000 (extractStridedSlice S1x1600000 ![1, 0] ei slices_S2x1600000_S1x1600000_1_0) shapeCasts_S1x1600000_S1600000

/-! ## The endpoint lists, wherever a layer reads them -/

theorem src_at1 (c : Dev nD) : W1 m ρ c (Proc.devRef .tc main_v1) = src (m ((c : Thread nD τ).loc main_arg1)) := by
  show StableHlo.after hostOps0 (W0 m ρ c) (Proc.devRef .tc main_v1) = _
  after_results_simp
  rfl
theorem dst_at1 (c : Dev nD) : W1 m ρ c (Proc.devRef .tc main_v3) = dst (m ((c : Thread nD τ).loc main_arg1)) := by
  show StableHlo.after hostOps0 (W0 m ρ c) (Proc.devRef .tc main_v3) = _
  after_results_simp
  rfl

theorem src_at2 (c : Dev nD) : W2 m ρ c (Proc.devRef .tc main_v1) = src (m ((c : Thread nD τ).loc main_arg1)) :=
  (back2 m ρ c main_v1 (by decide)).trans (src_at1 m ρ c)
theorem dst_at2 (c : Dev nD) : W2 m ρ c (Proc.devRef .tc main_v3) = dst (m ((c : Thread nD τ).loc main_arg1)) :=
  (back2 m ρ c main_v3 (by decide)).trans (dst_at1 m ρ c)
theorem src_at6 (c : Dev nD) : W6 m ρ c (Proc.devRef .tc main_v1) = src (m ((c : Thread nD τ).loc main_arg1)) :=
  (back6 m ρ c main_v1 (by decide)).trans ((back5 m ρ c main_v1 (by nw) (by nw) (by nw)).trans (src_at2 m ρ c))
theorem dst_at6 (c : Dev nD) : W6 m ρ c (Proc.devRef .tc main_v3) = dst (m ((c : Thread nD τ).loc main_arg1)) :=
  (back6 m ρ c main_v3 (by decide)).trans ((back5 m ρ c main_v3 (by nw) (by nw) (by nw)).trans (dst_at2 m ρ c))
theorem src_at10 (c : Dev nD) : W10 m ρ c (Proc.devRef .tc main_v1) = src (m ((c : Thread nD τ).loc main_arg1)) :=
  (back10 m ρ c main_v1 (by decide)).trans ((back9 m ρ c main_v1 (by nw) (by nw) (by nw)).trans (src_at6 m ρ c))
theorem dst_at10 (c : Dev nD) : W10 m ρ c (Proc.devRef .tc main_v3) = dst (m ((c : Thread nD τ).loc main_arg1)) :=
  (back10 m ρ c main_v3 (by decide)).trans ((back9 m ρ c main_v3 (by nw) (by nw) (by nw)).trans (dst_at6 m ρ c))

/-! ## The arguments, wherever they are read -/

section Args
variable (c : Dev nD) (b : Ref sig .tc)

/-- An argument at the first region's entry. -/
theorem at1 (h : ∀ op ∈ (hostOps0 : List (HloOp τ sig (Elt F))), Proc.devRef .tc b ∉ op.writes) :
    W1 m ρ c (Proc.devRef .tc b) = m ((c : Thread nD τ).loc b) := (back1 m ρ c b h).trans rfl

end Args

theorem arg0_at1 (c : Dev nD) : W1 m ρ c (Proc.devRef .tc main_arg0) = m ((c : Thread nD τ).loc main_arg0) := at1 m ρ c main_arg0 (by nw)
theorem arg3_at1 (c : Dev nD) : W1 m ρ c (Proc.devRef .tc main_arg3) = m ((c : Thread nD τ).loc main_arg3) := at1 m ρ c main_arg3 (by nw)
theorem arg4_at2 (c : Dev nD) : W2 m ρ c (Proc.devRef .tc main_arg4) = m ((c : Thread nD τ).loc main_arg4) :=
  (back2 m ρ c main_arg4 (by decide)).trans (at1 m ρ c main_arg4 (by nw))
theorem arg5_at5 (c : Dev nD) : W5 m ρ c (Proc.devRef .tc main_arg5) = m ((c : Thread nD τ).loc main_arg5) :=
  (back5 m ρ c main_arg5 (by nw) (by nw) (by nw)).trans ((back2 m ρ c main_arg5 (by decide)).trans (at1 m ρ c main_arg5 (by nw)))
theorem arg6_at6 (c : Dev nD) : W6 m ρ c (Proc.devRef .tc main_arg6) = m ((c : Thread nD τ).loc main_arg6) :=
  (back6 m ρ c main_arg6 (by decide)).trans ((back5 m ρ c main_arg6 (by nw) (by nw) (by nw)).trans
    ((back2 m ρ c main_arg6 (by decide)).trans (at1 m ρ c main_arg6 (by nw))))
theorem arg7_at9 (c : Dev nD) : W9 m ρ c (Proc.devRef .tc main_arg7) = m ((c : Thread nD τ).loc main_arg7) :=
  (back9 m ρ c main_arg7 (by nw) (by nw) (by nw)).trans ((back6 m ρ c main_arg7 (by decide)).trans
    ((back5 m ρ c main_arg7 (by nw) (by nw) (by nw)).trans ((back2 m ρ c main_arg7 (by decide)).trans (at1 m ρ c main_arg7 (by nw)))))
theorem arg8_at10 (c : Dev nD) : W10 m ρ c (Proc.devRef .tc main_arg8) = m ((c : Thread nD τ).loc main_arg8) :=
  (back10 m ρ c main_arg8 (by decide)).trans ((back9 m ρ c main_arg8 (by nw) (by nw) (by nw)).trans ((back6 m ρ c main_arg8 (by decide)).trans
    ((back5 m ρ c main_arg8 (by nw) (by nw) (by nw)).trans ((back2 m ρ c main_arg8 (by decide)).trans (at1 m ρ c main_arg8 (by nw))))))
theorem arg2_at10 (c : Dev nD) : W10 m ρ c (Proc.devRef .tc main_arg2) = m ((c : Thread nD τ).loc main_arg2) :=
  (back10 m ρ c main_arg2 (by decide)).trans ((back9 m ρ c main_arg2 (by nw) (by nw) (by nw)).trans ((back6 m ρ c main_arg2 (by decide)).trans
    ((back5 m ρ c main_arg2 (by nw) (by nw) (by nw)).trans ((back2 m ρ c main_arg2 (by decide)).trans (at1 m ρ c main_arg2 (by nw))))))
/-- The last two arguments are read after the last region: one step up from there the generated frame's own reading
    of the final contents applies. -/
theorem arg9_at14 (c : Dev nD) : W14 m ρ c (Proc.devRef .tc main_arg9) = m ((c : Thread nD τ).loc main_arg9) :=
  (StableHlo.after_of_forall_not_mem hostOps4 _ (by nw)).symm.trans (W15_main_arg9 m ρ c)
theorem arg10_at14 (c : Dev nD) : W14 m ρ c (Proc.devRef .tc main_arg10) = m ((c : Thread nD τ).loc main_arg10) :=
  (StableHlo.after_of_forall_not_mem hostOps4 _ (by nw)).symm.trans (W15_main_arg10 m ρ c)

/-! ## The three layers composed -/

/-- The node features after the three layers, given the matrix product as a function: product, layer, `relu`, product,
    layer, `relu`, product, layer. -/
def feats (dot : FVec F S50000x128 .f32 → FVec F S128x128 .f32 → FVec F S50000x128 .f32)
    (x : FVec F S50000x128 .f32) (ei : IVec S2x1600000 32)
    (W1 : FVec F S128x128 .f32) (b1 : FVec F S128 .f32) (W2 : FVec F S128x128 .f32) (b2 : FVec F S128 .f32)
    (W3 : FVec F S128x128 .f32) (b3 : FVec F S128 .f32) : FVec F S50000x128 .f32 :=
  conv (dot (relu (conv (dot (relu (conv (dot x W1) (ends (src ei)) (ends (dst ei)) b1)) W2) (ends (src ei)) (ends (dst ei)) b2)) W3)
    (ends (src ei)) (ends (dst ei)) b3

end Cert.KernelIdeal.Walk

end
-- ==== Proof.RefForm.lean ====
import proofs.«419874_j88905823027257_1_alg».proof.Proof.RefRun
import proofs.«419874_j88905823027257_1_alg».proof.Proof.Layer
import proofs.«419874_j88905823027257_1_alg».proof.Proof.Walk

/-!
  The reference's result, folded. The reference runs the same three layers as the kernel's program, with the host's
  matrix product where that program launches a kernel, then pools: per graph `g` the sum of the node features whose
  graph id is `g` and the number of such nodes (two accumulating scatters by graph id, an id outside `[0, G)` landing
  nowhere), the sums divided by `max count 1`, times `Wlin`, plus `blin`. The generated run states the result as one
  composed term of the arguments; here that term is recognised as those named functions of the arguments.
-/

set_option maxRecDepth 16384

noncomputable section

namespace Cert.ReferenceIdeal.Form

open Cert.ReferenceIdeal Cert.ReferenceIdeal.Gen
open Idealize.ShloMosaic Idealize.ShloMosaic.TcCoe Idealize.SL.Sem Idealize.ShloMosaic.StableHlo

variable {F : FTy → Type} [FloatOps F]

/-- The host's matrix product `[N, 128] × [128, 128]`. -/
def dotN (x : FVec F S50000x128 .f32) (w : FVec F S128x128 .f32) : FVec F S50000x128 .f32 :=
  Host.dotGeneral dot_S50000x128_S128x128_S50000x128_1_0_0_1_n_n none x w

/-- The graph ids as a column, in the reference's spelling. -/
def idcolR (ids : IVec S50000 32) : IVec S50000x1 32 := broadcastInDim S50000x1 ![0] bcast_S50000_S50000x1_0 ids

/-- Per graph, the sum of the features of its nodes. -/
def sumsR (ids : IVec S50000 32) (h : FVec F S50000x128 .f32) : FVec F S128x128 .f32 :=
  Host.scatterAdd scatter_S128x128_S50000x1_S50000x128_1_0_0_1
    (broadcastInDim S128x128 ![] bcast_S_S128x128 (constant S_ .f32 0x00000000#32)) (idcolR ids) h

/-- Per graph, the number of its nodes. -/
def cntsR (ids : IVec S50000 32) : FVec F S128 .f32 :=
  Host.scatterAdd scatter_S128_S50000x1_S50000_n_0_0_1
    (broadcastInDim S128 ![] bcast_S_S128 (constant S_ .f32 0x00000000#32)) (idcolR ids)
    (broadcastInDim S50000 ![] bcast_S_S50000 (constant S_ .f32 0x3F800000#32))

/-- The counts as a column, floored at one. -/
def countcolR (cnts : FVec F S128 .f32) : FVec F S128x1 .f32 :=
  broadcastInDim S128x1 ![0] bcast_S128_S128x1_0
    (maximumf cnts (broadcastInDim S128 ![] bcast_S_S128 (constant S_ .f32 0x3F800000#32)))

/-- From sums and a count column to the result: the mean per graph, times `Wlin`, plus `blin`. -/
def headR (sums : FVec F S128x128 .f32) (ccol : FVec F S128x1 .f32) (Wl : FVec F S128x64 .f32) (bl : FVec F S64 .f32) :
    FVec F S128x64 .f32 :=
  addf
    (Host.dotGeneral dot_S128x128_S128x64_S128x64_1_0_0_1_n_n none
      (Host.divf sums (broadcastInDim S128x128 ![0, 1] bcast_S128x1_S128x128_0_1 ccol)) Wl)
    (broadcastInDim S128x64 ![0, 1] bcast_S1x64_S128x64_0_1 (broadcastInDim S1x64 ![1] bcast_S64_S1x64_1 bl))

set_option maxHeartbeats 8000000 in
/-- The generated run's result term is: three layers over the host's product, pooled by graph id, the head. -/
theorem res_form (m : (ℓ : Loc nD τ sig) → Buf (Elt F) ℓ) (c : Dev nD) :
    ValueP.res_main_v150 m c
      = headR
          (sumsR (m ((c.tc : Thread nD τ).loc main_arg2))
            (Cert.KernelIdeal.Walk.feats dotN (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))))
          (countcolR (cntsR (m ((c.tc : Thread nD τ).loc main_arg2))))
          (m ((c.tc : Thread nD τ).loc main_arg9)) (m ((c.tc : Thread nD τ).loc main_arg10)) := by
  unfold ValueP.res_main_v150
  rfl

end Cert.ReferenceIdeal.Form

end
-- ==== Proof.Feat.lean ====
import proofs.«419874_j88905823027257_1_alg».proof.Proof.Gen.KernelIdeal.Frame
import proofs.«419874_j88905823027257_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.Feat

open Cert.KernelIdeal Cert.KernelIdeal.Gen
open Idealize.ShloMosaic Idealize.ShloMosaic.TcCoe Idealize.SL.Sem Idealize.ShloMosaic.ValueIdx

/-! ## A row block of a product is the product of the row block

  Each of the three regions multiplies a [50000,128] array by a [128,128] weight, 10000 rows at a grid point: the
  block's element (p, q) is the sum over k of x (p, k) * w (k, q), and the whole product's element (r, q) is the same
  sum over row r of the whole left factor. With r = 10000 t + p these are one sum, term by term. -/

theorem hz : (![0, 0] : Fin 2 → Nat) = fun _ => 0 := funext fun a => by
  match a with
  | ⟨0, _⟩ => rfl
  | ⟨1, _⟩ => rfl

/-! ### The block product's operand indices, axis by axis -/

theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's product at (p, q): both narrowings are the identity on exact values and the accumulator is the zero
    splat, so the element is the sum over the contraction index k of x (p, k) * w (k, q). -/
theorem blockProduct_apply (x : Vec Ideal S10000x128 .f32) (w : Vec Ideal S128x128 .f32) (p : Fin 10000) (q : Fin 128) :
    (matmul dot_S10000x128_S128x128_S10000x128_1_0_0_1_n_n none (truncf .bf16 x bitsLt_bf16_f32) (truncf .bf16 w bitsLt_bf16_f32)
        (constant (F := Ideal) S10000x128 .f32 0x00000000#32) : FVec Ideal S10000x128 .f32) (ix2 p q)
      = ∑ k : Fin 128, x (ix2 p k) * w (ix2 k q) := by
  show FloatOps.matmul dot_S10000x128_S128x128_S10000x128_1_0_0_1_n_n none _ _ (constant S10000x128 .f32 0x00000000#32) _ = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er, truncf_apply, truncf_apply]

/-! ### The whole product's operand indices, axis by axis -/

theorem lhs_all_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_all_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_all_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_all_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The whole arrays' product at (r, q): the sum over k of X (r, k) * M (k, q). -/
theorem wholeProduct_apply (X : Vec Ideal S50000x128 .f32) (M : Vec Ideal S128x128 .f32) (r : Fin 50000) (q : Fin 128) :
    (Host.dotGeneral (F := Ideal) (φ₁ := .f32) (φ₂ := .f32) Cert.ReferenceIdeal.dot_S50000x128_S128x128_S50000x128_1_0_0_1_n_n none X M) (ix2 r q)
      = ∑ k : Fin 128, X (ix2 r k) * M (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact lhs_all_0 _ _
    | ⟨1, _⟩ => exact (lhs_all_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (rhs_all_0 _ _).trans hk
    | ⟨1, _⟩ => exact rhs_all_1 _ _)
  rw [el, er]

/-- A row of a product depends on that row of the left factor only: if row p of the block x is row r of X, and the
    block w agrees with M on column q, the block product at (p, q) is the whole product at (r, q). -/
theorem blockProduct_eq_whole (X : Vec Ideal S50000x128 .f32) (M : Vec Ideal S128x128 .f32)
    (x : Vec Ideal S10000x128 .f32) (w : Vec Ideal S128x128 .f32) (p : Fin 10000) (q : Fin 128) (r : Fin 50000)
    (hx : ∀ k : Fin 128, x (ix2 p k) = X (ix2 r k)) (hw : ∀ k : Fin 128, w (ix2 k q) = M (ix2 k q)) :
    (matmul dot_S10000x128_S128x128_S10000x128_1_0_0_1_n_n none (truncf .bf16 x bitsLt_bf16_f32) (truncf .bf16 w bitsLt_bf16_f32)
        (constant (F := Ideal) S10000x128 .f32 0x00000000#32) : FVec Ideal S10000x128 .f32) (ix2 p q)
      = (Host.dotGeneral (F := Ideal) (φ₁ := .f32) (φ₂ := .f32) Cert.ReferenceIdeal.dot_S50000x128_S128x128_S50000x128_1_0_0_1_n_n none X M) (ix2 r q) := by
  rw [blockProduct_apply, wholeProduct_apply]
  exact Finset.sum_congr rfl fun k _ => by rw [hx k, hw k]

variable (V : (c : Dev nD) → (b : Ref sig .tc) → Buf (Elt Ideal) ((c : Thread nD τ).loc b))

abbrev X0 (c : Dev nD) : Vec Ideal S50000x128 .f32 := V c (Pipeline.arrRef spec0 0)
abbrev M0 (c : Dev nD) : Vec Ideal S128x128 .f32 := V c (Pipeline.arrRef spec0 1)

/-- The printed index maps at point t, decided over the grid: the two row-block windows sit at block (t, 0), the
    weight's window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 10000 t, ..., 10000 t + 9999 of the left factor. -/
theorem rows0_apply (c : Dev nD) (t : Fin cfg0.N) (y : S10000x128.Idx) (i : S50000x128.Idx)
    (h0 : (i 0).val = t.val * 10000 + (y 0).val) (h1 : (i 1).val = (y 1).val) :
    (iblk0 V c 0 t : Vec Ideal S10000x128 .f32) y = X0 V c i := by
  obtain ⟨e00, e01, -, -, -, -⟩ := idx_facts0 t
  unfold iblk0
  rw [View.read_apply]
  show V c (Pipeline.arrRef spec0 0) _ = V c (Pipeline.arrRef spec0 0) i
  congr 1
  funext a
  apply Fin.ext
  match a with
  | ⟨0, _⟩ => show win0_0.index t (0 : Fin 2) * 10000 + 1 * (y 0).val = (i 0).val; rw [e00, h0]; omega
  | ⟨1, _⟩ => show win0_0.index t (1 : Fin 2) * 128 + 1 * (y 1).val = (i 1).val; rw [e01, h1]; omega

/-- The weight's block at every point is the whole weight. -/
theorem weight0_apply (c : Dev nD) (t : Fin cfg0.N) (y : S128x128.Idx) :
    (iblk0 V c 1 t : Vec Ideal S128x128 .f32) y = M0 V c y := by
  obtain ⟨-, -, e10, e11, -, -⟩ := idx_facts0 t
  unfold iblk0
  rw [View.read_apply]
  show V c (Pipeline.arrRef spec0 1) _ = V c (Pipeline.arrRef spec0 1) y
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The body's payload at (p, q) against the whole product at (r, q), for blocks x, w that are row r of X on row p
    and M on column q. -/
theorem pay0_eq_whole (X : Vec Ideal S50000x128 .f32) (M : Vec Ideal S128x128 .f32)
    (x : Vec Ideal S10000x128 .f32) (w : Vec Ideal S128x128 .f32) (j : S10000x128.Idx) (i : S50000x128.Idx)
    (p : Fin 10000) (q : Fin 128) (r : Fin 50000) (hj : j = ix2 p q) (hi : i = ix2 r q)
    (hx : ∀ k : Fin 128, x (ix2 p k) = X (ix2 r k)) (hw : ∀ k : Fin 128, w (ix2 k q) = M (ix2 k q)) :
    (k0_pay1 x w : FVec Ideal S10000x128 .f32) j
      = (Host.dotGeneral (F := Ideal) (φ₁ := .f32) (φ₂ := .f32) Cert.ReferenceIdeal.dot_S50000x128_S128x128_S50000x128_1_0_0_1_n_n none X M) i := by
  subst hj hi
  exact blockProduct_eq_whole X M x w p q r hx hw

/-- What point t writes back is block t of the whole product of the arrays as the region finds them. -/
theorem flushed0 (c : Dev nD) (t : Fin cfg0.N) :
    (dat0 (F := Ideal) V c).flushed 2 t = ((cfg0.win 2).blk t).view.read (Elt Ideal) (Host.dotGeneral (F := Ideal) (φ₁ := .f32) (φ₂ := .f32) Cert.ReferenceIdeal.dot_S50000x128_S128x128_S50000x128_1_0_0_1_n_n none (X0 V c) (M0 V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e20, e21⟩ := idx_facts0 t
  funext j
  have hb0 : (j 0).val < 10000 := (j 0).isLt
  have hb1 : (j 1).val < 128 := (j 1).isLt
  have ht : t.val < 5 := t.isLt
  refine pay0_eq_whole (X0 V c) (M0 V c) (iblk0 V c 0 t) (iblk0 V c 1 t) j (((cfg0.win 2).blk t).view.emb j)
    ⟨(j 0).val, hb0⟩ ⟨(j 1).val, hb1⟩ ⟨t.val * 10000 + (j 0).val, by omega⟩ ?_ ?_ ?_ ?_
  · funext a
    apply Fin.ext
    match a with
    | ⟨0, _⟩ => rfl
    | ⟨1, _⟩ => rfl
  · funext a
    apply Fin.ext
    match a with
    | ⟨0, _⟩ => show win0_2.index t (0 : Fin 2) * 10000 + 1 * (j 0).val = t.val * 10000 + (j 0).val; rw [e20]; omega
    | ⟨1, _⟩ => show win0_2.index t (1 : Fin 2) * 128 + 1 * (j 1).val = (j 1).val; rw [e21]; omega
  · intro k
    exact rows0_apply V c t _ _ rfl rfl
  · intro k
    exact weight0_apply V c t _

/-- Every row r of the result is in the block of point r / 10000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := rfl
  let t : Fin cfg0.N := ⟨(i 0).val / 10000, by rw [hN]; omega⟩
  obtain ⟨-, -, -, -, e20, e21⟩ := idx_facts0 t
  have et : t.val = (i 0).val / 10000 := rfl
  refine ⟨t, flush0_2 t, ?_⟩
  show i ∈ ((View.whole main_v4).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; rw [e20, et]; omega
  | ⟨1, _⟩ => show win0_2.index t (1 : Fin 2) * 128 ≤ (i 1).val ∧ (i 1).val < win0_2.index t (1 : Fin 2) * 128 + 128; rw [e21]; omega

theorem region0 (c : Dev nD) :
    ((dat0 (F := Ideal) V c).arrAt 2 cfg0.N : Vec Ideal S50000x128 .f32)
      = Host.dotGeneral (F := Ideal) (φ₁ := .f32) (φ₂ := .f32) Cert.ReferenceIdeal.dot_S50000x128_S128x128_S50000x128_1_0_0_1_n_n none (X0 V c) (M0 V c) := by
  exact (dat0 (F := Ideal) V c).arrAt_eq_of_cover 2 _ (fun t _ => flushed0 V c t) cover0

abbrev X1 (c : Dev nD) : Vec Ideal S50000x128 .f32 := V c (Pipeline.arrRef spec1 0)
abbrev M1 (c : Dev nD) : Vec Ideal S128x128 .f32 := V c (Pipeline.arrRef spec1 1)

/-- The printed index maps at point t, decided over the grid: the two row-block windows sit at block (t, 0), the
    weight's window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left factor's block at point t is rows 10000 t, ..., 10000 t + 9999 of the left factor. -/
theorem rows1_apply (c : Dev nD) (t : Fin cfg1.N) (y : S10000x128.Idx) (i : S50000x128.Idx)
    (h0 : (i 0).val = t.val * 10000 + (y 0).val) (h1 : (i 1).val = (y 1).val) :
    (iblk1 V c 0 t : Vec Ideal S10000x128 .f32) y = X1 V c i := by
  obtain ⟨e00, e01, -, -, -, -⟩ := idx_facts1 t
  unfold iblk1
  rw [View.read_apply]
  show V c (Pipeline.arrRef spec1 0) _ = V c (Pipeline.arrRef spec1 0) i
  congr 1
  funext a
  apply Fin.ext
  match a with
  | ⟨0, _⟩ => show win1_0.index t (0 : Fin 2) * 10000 + 1 * (y 0).val = (i 0).val; rw [e00, h0]; omega
  | ⟨1, _⟩ => show win1_0.index t (1 : Fin 2) * 128 + 1 * (y 1).val = (i 1).val; rw [e01, h1]; omega

/-- The weight's block at every point is the whole weight. -/
theorem weight1_apply (c : Dev nD) (t : Fin cfg1.N) (y : S128x128.Idx) :
    (iblk1 V c 1 t : Vec Ideal S128x128 .f32) y = M1 V c y := by
  obtain ⟨-, -, e10, e11, -, -⟩ := idx_facts1 t
  unfold iblk1
  rw [View.read_apply]
  show V c (Pipeline.arrRef spec1 1) _ = V c (Pipeline.arrRef spec1 1) y
  congr 1
  funext a
  apply Fin.ext
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- The body's payload at (p, q) against the whole product at (r, q), for blocks x, w that are row r of X on row p
    and M on column q. Here the body first casts the left block to its own shape, which is the identity. -/
theorem pay1_eq_whole (X : Vec Ideal S50000x128 .f32) (M : Vec Ideal S128x128 .f32)
    (x : Vec Ideal S10000x128 .f32) (w : Vec Ideal S128x128 .f32) (j : S10000x128.Idx) (i : S50000x128.Idx)
    (p : Fin 10000) (q : Fin 128) (r : Fin 50000) (hj : j = ix2 p q) (hi : i = ix2 r q)
    (hx : ∀ k : Fin 128, x (ix2 p k) = X (ix2 r k)) (hw : ∀ k : Fin 128, w (ix2 k q) = M (ix2 k q)) :
    (k1_pay1 x w : FVec Ideal S10000x128 .f32) j
      = (Host.dotGeneral (F := Ideal) (φ₁ := .f32) (φ₂ := .f32) Cert.ReferenceIdeal.dot_S50000x128_S128x128_S50000x128_1_0_0_1_n_n none X M) i := by
  subst hj hi
  show (matmul dot_S10000x128_S128x128_S10000x128_1_0_0_1_n_n none
      (truncf .bf16 (shapeCast S10000x128 x shapeCasts_S10000x128_S10000x128) bitsLt_bf16_f32) (truncf .bf16 w bitsLt_bf16_f32)
      (constant (F := Ideal) S10000x128 .f32 0x00000000#32) : FVec Ideal S10000x128 .f32) (ix2 p q) = _
  rw [shapeCast_self]
  exact blockProduct_eq_whole X M x w p q r hx hw

/-- What point t writes back is block t of the whole product of the arrays as the region finds them. -/
theorem flushed1 (c : Dev nD) (t : Fin cfg1.N) :
    (dat1 (F := Ideal) V c).flushed 2 t = ((cfg1.win 2).blk t).view.read (Elt Ideal) (Host.dotGeneral (F := Ideal) (φ₁ := .f32) (φ₂ := .f32) Cert.ReferenceIdeal.dot_S50000x128_S128x128_S50000x128_1_0_0_1_n_n none (X1 V c) (M1 V c)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨-, -, -, -, e20, e21⟩ := idx_facts1 t
  funext j
  have hb0 : (j 0).val < 10000 := (j 0).isLt
  have hb1 : (j 1).val < 128 := (j 1).isLt
  have ht : t.val < 5 := t.isLt
  refine pay1_eq_whole (X1 V c) (M1 V c) (iblk1 V c 0 t) (iblk1 V c 1 t) j (((cfg1.win 2).blk t).view.emb j)
    ⟨(j 0).val, hb0⟩ ⟨(j 1).val, hb1⟩ ⟨t.val * 10000 + (j 0).val, by omega⟩ ?_ ?_ ?_ ?_
  · funext a
    apply Fin.ext
    match a with
    | ⟨0, _⟩ => rfl
    | ⟨1, _⟩ => rfl
  · funext a
    apply Fin.ext
    match a with
    | ⟨0, _⟩ => show win1_2.index t (0 : Fin 2) * 10000 + 1 * (j 0).val = t.val * 10000 + (j 0).val; rw [e20]; omega
    | ⟨1, _⟩ => show win1_2.index t (1 : Fin 2) * 128 + 1 * (j 1).val = (j 1).val; rw [e21]; omega
  · intro k
    exact rows1_apply V c t _ _ rfl rfl
  · intro k
    exact weight1_apply V c t _

/-- Every row r of the result is in the block of point r / 10000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := rfl
  let t : Fin cfg1.N := ⟨(i 0).val / 10000, by rw [hN]; omega⟩
  obtain ⟨-, -, -, -, e20, e21⟩ := idx_facts1 t
  have et : t.val = (i 0).val / 10000 := rfl
  refine ⟨t, flush1_2 t, ?_⟩
  show i ∈ ((View.whole main_v49).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; rw [e20, et]; omega
  | ⟨1, _⟩ => show win1_2.index t (1 : Fin 2) * 128 ≤ (i 1).val ∧ (i 1).val < win1_2.index t (1 : Fin 2) * 128 + 128; rw [e21]; omega

theorem region1 (c : Dev nD) :
    ((dat1 (F := Ideal) V c).arrAt 2 cfg1.N : Vec Ideal S50000x128 .f32)
      = Host.dotGeneral (F := Ideal) (φ₁ := .f32) (φ₂ := .f32) Cert.ReferenceIdeal.dot_S50000x128_S128x128_S50000x128_1_0_0_1_n_n none (X1 V c) (M1 V c) := by
  exact (dat1 (F := Ideal) V c).arrAt_eq_of_cover 2 _ (fun t _ => flushed1 V c t) cover1

abbrev X2 (c : Dev nD) : Vec Ideal S50000x128 .f32 := V c (Pipeline.arrRef spec2 0)
abbrev M2 (c : Dev nD) : Vec Ideal S128x128 .f32 := V c (Pipeline.arrRef spec2 1)

/-- The printed index maps at point t, decided over the grid: the two row-block windows sit at block (t, 0), the
    weight's window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t is rows 10000 t, ..., 10000 t + 9999 of the left factor. -/
theorem rows2_apply (c : Dev nD) (t : Fin cfg2.N) (y : S10000x128.Idx) (i : S50000x128.Idx)
    (h0 : (i 0).val = t.val * 10000 + (y 0).val) (h1 : (i 1).val = (y 1).val) :
    (iblk2 V c 0 t : Vec Ideal S10000x128 .f32) y = X2 V c i := by
  obtain ⟨e00, e01, -, -, -, -⟩ := idx_facts2 t
  unfold iblk2
  rw [View.read_apply]
  show V c (Pipeline.arrRef spec2 0) _ = V c (Pipeline.arrRef spec2 0) i
  congr 1
  funext a
  apply Fin.ext
  match a with
  | ⟨0, _⟩ => show win2_0.index t (0 : Fin 2) * 10000 + 1 * (y 0).val = (i 0).val; rw [e00, h0]; omega
  | ⟨1, _⟩ => show win2_0.index t (1 : Fin 2) * 128 + 1 * (y 1).val = (i 1).val; rw [e01, h1]; omega

/-- The weight's block at every point is the whole weight. -/
theorem weight2_apply (c : Dev nD) (t : Fin cfg2.N) (y : S128x128.Idx) :
    (iblk2 V c 1 t : Vec Ideal S128x128 .f32) y = M2 V c y := by
  obtain ⟨-, -, e10, e11, -, -⟩ := idx_facts2 t
  unfold iblk2
  rw [View.read_apply]
  show V c (Pipeline.arrRef spec2 1) _ = V c (Pipeline.arrRef spec2 1) y
  congr 1
  funext a
  apply Fin.ext
  match a with
  | ⟨0, _⟩ => show win2_1.index t (0 : Fin 2) * 128 + 1 * (y 0).val = (y 0).val; rw [e10]; omega
  | ⟨1, _⟩ => show win2_1.index t (1 : Fin 2) * 128 + 1 * (y 1).val = (y 1).val; rw [e11]; omega

/-- The body's payload at (p, q) against the whole product at (r, q), for blocks x, w that are row r of X on row p
    and M on column q. Here the body first casts the left block to its own shape, which is the identity. -/
theorem pay2_eq_whole (X : Vec Ideal S50000x128 .f32) (M : Vec Ideal S128x128 .f32)
    (x : Vec Ideal S10000x128 .f32) (w : Vec Ideal S128x128 .f32) (j : S10000x128.Idx) (i : S50000x128.Idx)
    (p : Fin 10000) (q : Fin 128) (r : Fin 50000) (hj : j = ix2 p q) (hi : i = ix2 r q)
    (hx : ∀ k : Fin 128, x (ix2 p k) = X (ix2 r k)) (hw : ∀ k : Fin 128, w (ix2 k q) = M (ix2 k q)) :
    (k2_pay1 x w : FVec Ideal S10000x128 .f32) j
      = (Host.dotGeneral (F := Ideal) (φ₁ := .f32) (φ₂ := .f32) Cert.ReferenceIdeal.dot_S50000x128_S128x128_S50000x128_1_0_0_1_n_n none X M) i := by
  subst hj hi
  show (matmul dot_S10000x128_S128x128_S10000x128_1_0_0_1_n_n none
      (truncf .bf16 (shapeCast S10000x128 x shapeCasts_S10000x128_S10000x128) bitsLt_bf16_f32) (truncf .bf16 w bitsLt_bf16_f32)
      (constant (F := Ideal) S10000x128 .f32 0x00000000#32) : FVec Ideal S10000x128 .f32) (ix2 p q) = _
  rw [shapeCast_self]
  exact blockProduct_eq_whole X M x w p q r hx hw

/-- What point t writes back is block t of the whole product of the arrays as the region finds them. -/
theorem flushed2 (c : Dev nD) (t : Fin cfg2.N) :
    (dat2 (F := Ideal) V c).flushed 2 t = ((cfg2.win 2).blk t).view.read (Elt Ideal) (Host.dotGeneral (F := Ideal) (φ₁ := .f32) (φ₂ := .f32) Cert.ReferenceIdeal.dot_S50000x128_S128x128_S50000x128_1_0_0_1_n_n none (X2 V c) (M2 V c)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨-, -, -, -, e20, e21⟩ := idx_facts2 t
  funext j
  have hb0 : (j 0).val < 10000 := (j 0).isLt
  have hb1 : (j 1).val < 128 := (j 1).isLt
  have ht : t.val < 5 := t.isLt
  refine pay2_eq_whole (X2 V c) (M2 V c) (iblk2 V c 0 t) (iblk2 V c 1 t) j (((cfg2.win 2).blk t).view.emb j)
    ⟨(j 0).val, hb0⟩ ⟨(j 1).val, hb1⟩ ⟨t.val * 10000 + (j 0).val, by omega⟩ ?_ ?_ ?_ ?_
  · funext a
    apply Fin.ext
    match a with
    | ⟨0, _⟩ => rfl
    | ⟨1, _⟩ => rfl
  · funext a
    apply Fin.ext
    match a with
    | ⟨0, _⟩ => show win2_2.index t (0 : Fin 2) * 10000 + 1 * (j 0).val = t.val * 10000 + (j 0).val; rw [e20]; omega
    | ⟨1, _⟩ => show win2_2.index t (1 : Fin 2) * 128 + 1 * (j 1).val = (j 1).val; rw [e21]; omega
  · intro k
    exact rows2_apply V c t _ _ rfl rfl
  · intro k
    exact weight2_apply V c t _

/-- Every row r of the result is in the block of point r / 10000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := rfl
  let t : Fin cfg2.N := ⟨(i 0).val / 10000, by rw [hN]; omega⟩
  obtain ⟨-, -, -, -, e20, e21⟩ := idx_facts2 t
  have et : t.val = (i 0).val / 10000 := rfl
  refine ⟨t, flush2_2 t, ?_⟩
  show i ∈ ((View.whole main_v94).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; rw [e20, et]; omega
  | ⟨1, _⟩ => show win2_2.index t (1 : Fin 2) * 128 ≤ (i 1).val ∧ (i 1).val < win2_2.index t (1 : Fin 2) * 128 + 128; rw [e21]; omega

theorem region2 (c : Dev nD) :
    ((dat2 (F := Ideal) V c).arrAt 2 cfg2.N : Vec Ideal S50000x128 .f32)
      = Host.dotGeneral (F := Ideal) (φ₁ := .f32) (φ₂ := .f32) Cert.ReferenceIdeal.dot_S50000x128_S128x128_S50000x128_1_0_0_1_n_n none (X2 V c) (M2 V c) := by
  exact (dat2 (F := Ideal) V c).arrAt_eq_of_cover 2 _ (fun t _ => flushed2 V c t) cover2

end Cert.KernelIdeal.Feat

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.LibVecScatterAdd.lean ====
/-
  An accumulating scatter of a vector of scalars into a vector, read at an index on the extended reals.

  The scatter takes an operand `x : [N]`, updates `upd : [R]` and indices as a column `idx : [R, 1]`, with an `add`
  body: no update window axis, inserted window axis 0, the scatter index naming operand axis 0 (the segment sum of
  `upd` by `idx`, added onto `x`). Update element `r` lands on operand element `idx[r, 0]` (the index read signed,
  NOT clamped; outside `[0, N)` the update is dropped). So element `n` of the result is `x n` plus the sum of `upd r`
  over the `r` whose index is `n`.
-/
import Idealize.ShloMosaic.Lib.ValueIdx
import Idealize.ShloMosaic.Lib.ValueIdxRank1
import Idealize.ShloMosaic.PureOps.Ideal.Laws

noncomputable section

namespace Idealize.ShloMosaic.ValueIdx

section VecScatterAdd

/-- Those dimension numbers for an operand `[N]`, scatter indices `[R, 1]` and updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: no operand axis is left for an update window. -/
theorem vs_not_mem_sKept {N R : Nat}
    (wf : ScatterDims.WF ⟨1, ![N]⟩ ⟨2, ![R, 1]⟩ ⟨1, ![R]⟩ [] [0] [0] 1) :
    (0 : Fin 1) ∉ (vecScatterDims N R wf).sKept := by
  show (0 : Fin 1) ∉ (List.finRange 1).filter (fun a => a ∉ [(0 : Fin 1)])
  decide

/-- On the operand's axis the window coordinate is `0`: an update is one scalar. -/
theorem vs_window {N R : Nat}
    (wf : ScatterDims.WF ⟨1, ![N]⟩ ⟨2, ![R, 1]⟩ ⟨1, ![R]⟩ [] [0] [0] 1) (r : Fin R) :
    (vecScatterDims N R wf).window (ix1 r) 0 = 0 := by
  unfold ScatterDims.window
  rw [dif_neg (vs_not_mem_sKept wf)]

/-- On the operand's axis the window starts at update `r`'s index `idx[r, 0]`, read signed. -/
theorem vs_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `r` lands on operand element `n` iff `r`'s index, read signed, is `n`. -/
theorem vecScatter_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start, vs_window]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start, vs_window] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start, vs_window]; omega
  · rename_i h
    constructor
    · intro he; cases he
    · intro e0
      exact absurd ⟨by omega, by omega⟩ h

/-- THE VECTOR SCATTER-ADD READ AT `n` on the extended reals: the operand's element plus the sum of the updates whose
    index is `n`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, ← Equiv.sum_comp (idxEquiv1 (n := R)).symm]
  refine Finset.sum_congr rfl (fun r _ => ?_)
  show (if (vecScatterDims N R wf).resultIdx? (ix1 r) idx = some (ix1 n) then upd (ix1 r) else 0) = _
  simp only [vecScatter_resultIdx_iff]

end VecScatterAdd

end Idealize.ShloMosaic.ValueIdx

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.Pool.lean ====
/-
  The pooling region at the ideal values. The grid has 5 points; point t sees rows [10000 t, 10000 t + 10000) of the
  node features H : [50000, 128] and of the graph ids B : [50000, 1]. The two outputs (feature sums [128, 128], counts
  [1, 128]) keep one block over the whole grid: the first point resets them to zero, every point adds its block's
  contribution, and they are written back once, after the last point.

  A block's contribution: the one-hot (r, g) is 1 where row r's id is the word g, else 0; the feature update is the
  block product contracting the rows of both operands, sum over r of onehot (r, g) * h (r, d); the count update is the
  one-hot summed down its rows. On the extended reals 1 * x = x and 0 * x = 0 (the infinities included), so the
  update at (g, d) is the sum of h (r, d) over the rows r of graph g, and at g the number of such rows as a sum of ones.

  After the last point entry (g, d) is 0 plus the five blocks' sums, which is the sum over all 50000 nodes n with
  B n = the word g of H (n, d): a sum over [0, 5 * 10000) is the double sum over block and row. The reference's
  accumulating scatter into zeros reads, at (g, d), 0 plus the sum of H (n, d) over the nodes whose id read signed is
  g; for g below 128 the two conditions are the same. No finiteness and no distributivity is used.
-/
import proofs.«419874_j88905823027257_1_alg».proof.Proof.Gen.KernelIdeal.Frame
import proofs.«419874_j88905823027257_1_alg».proof.Proof.Gen.ReferenceIdeal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.Tactic
import Idealize.ShloMosaic.Lib.IdealHost
import proofs.«419874_j88905823027257_1_alg».proof.Proof.LibRowScatterAdd
import proofs.«419874_j88905823027257_1_alg».proof.Proof.LibVecScatterAdd
import proofs.«419874_j88905823027257_1_alg».proof.Proof.LibTileSum

set_option maxRecDepth 16384

noncomputable section

namespace Cert.KernelIdeal.Pool

open Cert.KernelIdeal Cert.KernelIdeal.Gen
open Idealize.ShloMosaic Idealize.ShloMosaic.TcCoe Idealize.SL.Sem Idealize.ShloMosaic.ValueIdx

theorem hz : (![0, 0] : Fin 2 → Nat) = fun _ => 0 := funext fun a => by fin_cases a <;> rfl

/-- A point that is not the first leaves in the feature-sum buffer, which held `xo2`, the update of `xo2` by the
    block: the one covering store's payload, its loads reading the whole buffers. -/
theorem out_B_2 (c : Dev nD) (i : grid3.Coords) (a1 : Memref sig .tc .vmem S10000x128 .f32) (h1 : a1.IsWhole)
    (a2 : Memref sig .tc .vmem S10000x1 .i32) (h2 : a2.IsWhole) (a3 : Memref sig .tc .vmem S128x128 .f32) (h3 : a3.IsWhole)
    (a4 : Memref sig .tc .vmem S1x128 .f32) (h4 : a4.IsWhole) (hc : ¬cond3_0 i)
    (x0 : Vec Ideal S10000x128 .f32) (x1 : Vec Ideal S10000x1 .i32) (xo2 : Vec Ideal S128x128 .f32) (xo3 : Vec Ideal S1x128 .f32) :
    out3_B_2 c i a1 h1 a2 h2 a3 h3 a4 h4 hc x0 x1 xo2 xo3 = k3_pay4 x1 x0 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread, View.ld_unit_zero (S := S10000x128) hz,
    View.ld_unit_zero (S := S10000x1) hz, View.ld_unit_zero (S := S128x128) hz]

/-- The same point leaves in the count buffer, which held `xo3`, the update of `xo3` by the block's graph ids. -/
theorem out_B_3 (c : Dev nD) (i : grid3.Coords) (a1 : Memref sig .tc .vmem S10000x128 .f32) (h1 : a1.IsWhole)
    (a2 : Memref sig .tc .vmem S10000x1 .i32) (h2 : a2.IsWhole) (a3 : Memref sig .tc .vmem S128x128 .f32) (h3 : a3.IsWhole)
    (a4 : Memref sig .tc .vmem S1x128 .f32) (h4 : a4.IsWhole) (hc : ¬cond3_0 i)
    (x0 : Vec Ideal S10000x128 .f32) (x1 : Vec Ideal S10000x1 .i32) (xo2 : Vec Ideal S128x128 .f32) (xo3 : Vec Ideal S1x128 .f32) :
    out3_B_3 c i a1 h1 a2 h2 a3 h3 a4 h4 hc x0 x1 xo2 xo3 = k3_pay5 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h2.read_unread, h4.read_unread,
    View.ld_unit_zero (S := S10000x1) hz, View.ld_unit_zero (S := S1x128) hz]

/-- The first point stores the zero block, reads it back, and leaves its update by the block. -/
theorem out_A_2 (c : Dev nD) (i : grid3.Coords) (a1 : Memref sig .tc .vmem S10000x128 .f32) (h1 : a1.IsWhole)
    (a2 : Memref sig .tc .vmem S10000x1 .i32) (h2 : a2.IsWhole) (a3 : Memref sig .tc .vmem S128x128 .f32) (h3 : a3.IsWhole)
    (a4 : Memref sig .tc .vmem S1x128 .f32) (h4 : a4.IsWhole) (hc : cond3_0 i)
    (x0 : Vec Ideal S10000x128 .f32) (x1 : Vec Ideal S10000x1 .i32) :
    out3_A_2 c i a1 h1 a2 h2 a3 h3 a4 h4 hc x0 x1 = k3_pay4 x1 x0 (k3_pay1 (F := Ideal)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S128x128) hz, View.readCov_unit_zero (S := S128x128) _ hz]
  simp only [View.readAt_eq_ld, h1.read_unread, h2.read_unread, View.ld_unit_zero (S := S10000x128) hz,
    View.ld_unit_zero (S := S10000x1) hz, View.ld_unit_zero (S := S128x128) hz]

theorem out_A_3 (c : Dev nD) (i : grid3.Coords) (a1 : Memref sig .tc .vmem S10000x128 .f32) (h1 : a1.IsWhole)
    (a2 : Memref sig .tc .vmem S10000x1 .i32) (h2 : a2.IsWhole) (a3 : Memref sig .tc .vmem S128x128 .f32) (h3 : a3.IsWhole)
    (a4 : Memref sig .tc .vmem S1x128 .f32) (h4 : a4.IsWhole) (hc : cond3_0 i)
    (x0 : Vec Ideal S10000x128 .f32) (x1 : Vec Ideal S10000x1 .i32) :
    out3_A_3 c i a1 h1 a2 h2 a3 h3 a4 h4 hc x0 x1 = k3_pay5 x1 (k3_pay2 (F := Ideal)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x128) hz, View.readCov_unit_zero (S := S1x128) _ hz]
  simp only [View.readAt_eq_ld, h2.read_unread, View.ld_unit_zero (S := S10000x1) hz, View.ld_unit_zero (S := S1x128) hz]

/-! ## The payloads read at an index -/

abbrev DD := dot_S10000x128_S10000x128_S128x128_0_0_1_1_n_n

/-- Both operands of the block product are contracted along their rows: the left operand is read at
    (contraction position, output row), the right one at (contraction position, output column). -/
theorem lhs_0 (j : S128x128.Idx) (k : DD.contr.Idx) : (DD.lhsIdx j k 0 : ℕ) = k ⟨0, by decide⟩ := by
  simp [DotDims.lhsIdx, DD, dot_S10000x128_S10000x128_S128x128_0_0_1_1_n_n]; rfl
theorem lhs_1 (j : S128x128.Idx) (k : DD.contr.Idx) : (DD.lhsIdx j k 1 : ℕ) = j 0 := by
  simp [DotDims.lhsIdx, DD, dot_S10000x128_S10000x128_S128x128_0_0_1_1_n_n]; rfl
theorem rhs_0 (j : S128x128.Idx) (k : DD.contr.Idx) : (DD.rhsIdx j k 0 : ℕ) = k ⟨0, by decide⟩ := by
  simp [DotDims.rhsIdx, DD, dot_S10000x128_S10000x128_S128x128_0_0_1_1_n_n]; rfl
theorem rhs_1 (j : S128x128.Idx) (k : DD.contr.Idx) : (DD.rhsIdx j k 1 : ℕ) = j 1 := by
  simp [DotDims.rhsIdx, DD, dot_S10000x128_S10000x128_S128x128_0_0_1_1_n_n]; rfl

/-- The comparison bit, widened and converted: the extended real 1 where the two words agree, 0 elsewhere. -/
theorem bit_val (a b : BitVec 32) :
    FloatOps.sitofp (F := Ideal) .f32 ((IntOp.cmpi .eq a b).setWidth 32) = if a = b then (1 : EReal) else 0 := by
  by_cases h : a = b
  · subst h
    rw [if_pos rfl]
    show ((((BitVec.ofBool (a == a)).setWidth 32).toInt : ℝ) : EReal) = 1
    simp
  · rw [if_neg h]
    have hb : (a == b) = false := beq_eq_false_iff_ne.mpr h
    show ((((BitVec.ofBool (a == b)).setWidth 32).toInt : ℝ) : EReal) = 0
    rw [hb]
    simp

/-- THE ONE-HOT at (r, g): 1 where row r's graph id is the word g, else 0. -/
theorem onehot_apply (b : Vec Ideal S10000x1 .i32) (r : Fin 10000) (g : Fin 128) :
    k3_pay3 (F := Ideal) b (ix2 r g) = if b (ix2 r (0 : Fin 1)) = BitVec.ofNat 32 g.val then (1 : EReal) else 0 := by
  unfold k3_pay3
  have eb : broadcastTo S10000x128 (shapeCast S10000x1 b Facts₀.shapeCasts_S10000x1_S10000x1) Facts₀.broadcasts_S10000x1_S10000x128 (ix2 r g)
      = b (ix2 r (0 : Fin 1)) := by
    refine (broadcastTo_apply _ _ (ix2 r g) (ix2 r (0 : Fin 1)) fun a => ?_).trans (congrFun (shapeCast_self b _) _)
    match a with
    | ⟨0, _⟩ => rfl
    | ⟨1, _⟩ => rfl
  have ei : iota .tc S10000x128 32 [1] Facts₀.iota_S10000x128_d1_w32 (ix2 r g) = BitVec.ofNat 32 g.val :=
    iota_single_apply .tc S10000x128 32 1 _ (ix2 r g)
  refine Eq.trans ?_ (bit_val (b (ix2 r (0 : Fin 1))) (BitVec.ofNat 32 g.val))
  show FloatOps.sitofp (F := Ideal) .f32 ((IntOp.cmpi .eq (broadcastTo S10000x128 (shapeCast S10000x1 b _) _ (ix2 r g))
      (iota .tc S10000x128 32 [1] _ (ix2 r g))).setWidth 32) = _
  rw [eb, ei]

/-- THE FEATURE UPDATE at (g, d): the accumulator plus the sum, over the block's rows whose graph id is the word g, of
    the row's feature d. The block product contracts the rows; a one-hot factor 1 keeps the feature and a factor 0
    removes it (`1 * x = x`, `0 * x = 0` on the extended reals, the infinities included). -/
theorem pay4_apply (b : Vec Ideal S10000x1 .i32) (h : Vec Ideal S10000x128 .f32) (acc : Vec Ideal S128x128 .f32) (g d : Fin 128) :
    k3_pay4 (F := Ideal) b h acc (ix2 g d)
      = acc (ix2 g d) + ∑ r : Fin 10000, (if b (ix2 r (0 : Fin 1)) = BitVec.ofNat 32 g.val then h (ix2 r d) else 0) := by
  unfold k3_pay4
  show shapeCast S128x128 acc _ (ix2 g d)
      + FloatOps.matmul DD none (truncf .bf16 (k3_pay3 (F := Ideal) b) _) (truncf .bf16 (shapeCast S10000x128 h _) _)
          (constant (F := Ideal) S128x128 .f32 0x00000000#32) (ix2 g d) = _
  refine congrArg₂ (· + ·) (congrFun (shapeCast_self acc _) _) ?_
  refine (Ideal.matmul_constant_zero_apply DD none _ _ (ix2 g d)).trans ?_
  rw [← Equiv.sum_comp (contrEquiv1 DD 10000 rfl rfl).symm]
  refine Finset.sum_congr rfl fun r _ => ?_
  have el : DD.lhsIdx (ix2 g d) ((contrEquiv1 DD 10000 rfl rfl).symm r) = ix2 r g := by
    apply Shape.idx_ext₂
    · exact (lhs_0 _ _).trans (contrEquiv1_symm_val DD 10000 rfl rfl r)
    · exact lhs_1 _ _
  have er : DD.rhsIdx (ix2 g d) ((contrEquiv1 DD 10000 rfl rfl).symm r) = ix2 r d := by
    apply Shape.idx_ext₂
    · exact (rhs_0 _ _).trans (contrEquiv1_symm_val DD 10000 rfl rfl r)
    · exact rhs_1 _ _
  rw [el, er]
  show k3_pay3 (F := Ideal) b (ix2 r g) * shapeCast S10000x128 h _ (ix2 r d) = _
  rw [onehot_apply, shapeCast_self]
  split
  · exact one_mul _
  · exact zero_mul _

/-- THE COUNT UPDATE at g: the accumulator plus the number, as a sum of ones, of the block's rows whose graph id is the
    word g: the one-hot summed down its rows. -/
theorem pay5_apply (b : Vec Ideal S10000x1 .i32) (acc : Vec Ideal S1x128 .f32) (g : Fin 128) :
    k3_pay5 (F := Ideal) b acc (ix2 (0 : Fin 1) g)
      = acc (ix2 (0 : Fin 1) g) + ∑ r : Fin 10000, (if b (ix2 r (0 : Fin 1)) = BitVec.ofNat 32 g.val then (1 : EReal) else 0) := by
  unfold k3_pay5
  show shapeCast S1x128 acc _ (ix2 (0 : Fin 1) g)
      + shapeCast S1x128 (multiReduction .add [0] S128 (k3_pay3 (F := Ideal) b) 0x00000000#32 Facts₀.reduces_S10000x128_S128 (.inl rfl) rfl)
          Facts₀.shapeCasts_S128_S1x128 (ix2 (0 : Fin 1) g) = _
  refine congrArg₂ (· + ·) (congrFun (shapeCast_self acc _) _) ?_
  refine (shapeCast_apply _ _ (ix2 (0 : Fin 1) g) (ix1 g) ?_).trans ?_
  · rw [Shape.rowMajor_val_one, Shape.rowMajor_val_two]
    show g.val = 0 * 128 + g.val
    omega
  refine (Ideal.multiReduction_add_single (k3_pay3 (F := Ideal) b) _ Facts₀.reduces_S10000x128_S128 _ _ (ix1 g)).trans ?_
  refine Finset.sum_congr rfl fun r _ => ?_
  refine Eq.trans (congrArg (k3_pay3 (F := Ideal) b) (funext fun ax => Fin.ext ?_)) (onehot_apply b r g)
  match ax with
  | ⟨0, _⟩ => rfl
  | ⟨1, _⟩ => rfl

/-! ## The blocks, and what the two outputs hold after each point -/

variable (V : (c : Dev nD) → (b : Ref sig .tc) → Buf (Elt Ideal) ((c : Thread nD τ).loc b))

abbrev H (c : Dev nD) : Vec Ideal S50000x128 .f32 := V c (Pipeline.arrRef spec3 0)
abbrev B (c : Dev nD) : IVec S50000x1 32 := V c (Pipeline.arrRef spec3 1)

/-- The block of node features the body sees at point `t`, and the block of graph ids. -/
abbrev hblk (c : Dev nD) (t : Fin cfg3.N) : Vec Ideal S10000x128 .f32 := iblk3 V c 0 t
abbrev bblk (c : Dev nD) (t : Fin cfg3.N) : Vec Ideal S10000x1 .i32 := iblk3 V c 1 t

/-- Block `t`'s contribution to feature sum (g, d): its rows of graph g, feature d, added up. -/
def blkS (c : Dev nD) (t : Fin cfg3.N) (g d : Fin 128) : EReal :=
  ∑ r : Fin 10000, (if bblk V c t (ix2 r (0 : Fin 1)) = BitVec.ofNat 32 g.val then hblk V c t (ix2 r d) else 0)
/-- Block `t`'s contribution to count g: one per row of graph g. -/
def blkC (c : Dev nD) (t : Fin cfg3.N) (g : Fin 128) : EReal :=
  ∑ r : Fin 10000, (if bblk V c t (ix2 r (0 : Fin 1)) = BitVec.ofNat 32 g.val then (1 : EReal) else 0)

theorem zero1 (g d : Fin 128) : k3_pay1 (F := Ideal) (ix2 g d) = 0 := Ideal.ofBits_zero_f32
theorem zero2 (g : Fin 128) : k3_pay2 (F := Ideal) (ix2 (0 : Fin 1) g) = 0 := Ideal.ofBits_zero_f32

/-- The first point: from the zero block, the block's contribution. -/
theorem stepA_2 (c : Dev nD) (t : Fin cfg3.N) (hA : t.val % 5 = 0) (g d : Fin 128) :
    (outsAt3 V c t.val t.isLt).1 (ix2 g d) = 0 + blkS V c t g d := by
  rw [outsAt3_A V c t hA]
  dsimp only
  refine (congrFun (out_A_2 c (grid3.coords t) (ms3_0 t) (hs3_0 t) (ms3_1 t) (hs3_1 t) (ms3_2 t) (hs3_2 t) (ms3_3 t) (hs3_3 t)
    ((hcond3_0 t).mpr hA) (hblk V c t) (bblk V c t)) (ix2 g d)).trans ?_
  refine (pay4_apply (bblk V c t) (hblk V c t) _ g d).trans ?_
  rw [zero1]
  rfl
theorem stepA_3 (c : Dev nD) (t : Fin cfg3.N) (hA : t.val % 5 = 0) (g : Fin 128) :
    (outsAt3 V c t.val t.isLt).2 (ix2 (0 : Fin 1) g) = 0 + blkC V c t g := by
  rw [outsAt3_A V c t hA]
  dsimp only
  refine (congrFun (out_A_3 c (grid3.coords t) (ms3_0 t) (hs3_0 t) (ms3_1 t) (hs3_1 t) (ms3_2 t) (hs3_2 t) (ms3_3 t) (hs3_3 t)
    ((hcond3_0 t).mpr hA) (hblk V c t) (bblk V c t)) (ix2 (0 : Fin 1) g)).trans ?_
  refine (pay5_apply (bblk V c t) _ g).trans ?_
  rw [zero2]
  rfl

/-- A later point: what the point before left, plus the block's contribution. -/
theorem stepB_2 (c : Dev nD) (t : Fin cfg3.N) (hB : ¬t.val % 5 = 0) (g d : Fin 128) :
    (outsAt3 V c t.val t.isLt).1 (ix2 g d)
      = (outsAt3 V c (t.val - 1) (Nat.lt_of_le_of_lt (Nat.sub_le _ _) t.isLt)).1 (ix2 g d) + blkS V c t g d := by
  rw [outsAt3_B V c t hB]
  dsimp only
  refine (congrFun (out_B_2 c (grid3.coords t) (ms3_0 t) (hs3_0 t) (ms3_1 t) (hs3_1 t) (ms3_2 t) (hs3_2 t) (ms3_3 t) (hs3_3 t)
    (fun h => hB ((hcond3_0 t).mp h)) (hblk V c t) (bblk V c t)
    (outsAt3 V c (t.val - 1) (Nat.lt_of_le_of_lt (Nat.sub_le _ _) t.isLt)).1
    (outsAt3 V c (t.val - 1) (Nat.lt_of_le_of_lt (Nat.sub_le _ _) t.isLt)).2) (ix2 g d)).trans ?_
  exact pay4_apply (bblk V c t) (hblk V c t) _ g d
theorem stepB_3 (c : Dev nD) (t : Fin cfg3.N) (hB : ¬t.val % 5 = 0) (g : Fin 128) :
    (outsAt3 V c t.val t.isLt).2 (ix2 (0 : Fin 1) g)
      = (outsAt3 V c (t.val - 1) (Nat.lt_of_le_of_lt (Nat.sub_le _ _) t.isLt)).2 (ix2 (0 : Fin 1) g) + blkC V c t g := by
  rw [outsAt3_B V c t hB]
  dsimp only
  refine (congrFun (out_B_3 c (grid3.coords t) (ms3_0 t) (hs3_0 t) (ms3_1 t) (hs3_1 t) (ms3_2 t) (hs3_2 t) (ms3_3 t) (hs3_3 t)
    (fun h => hB ((hcond3_0 t).mp h)) (hblk V c t) (bblk V c t)
    (outsAt3 V c (t.val - 1) (Nat.lt_of_le_of_lt (Nat.sub_le _ _) t.isLt)).1
    (outsAt3 V c (t.val - 1) (Nat.lt_of_le_of_lt (Nat.sub_le _ _) t.isLt)).2) (ix2 (0 : Fin 1) g)).trans ?_
  exact pay5_apply (bblk V c t) _ g

/-! ## After the last point: the five blocks' contributions, from zero -/

theorem lt4 : 4 < cfg3.N := by rw [show cfg3.N = 5 from N_3]; decide

/-- The grid's points, by their number. -/
def pt (a : Fin 5) : Fin cfg3.N := ⟨a.val, lt_of_lt_of_eq a.isLt (show cfg3.N = 5 from N_3).symm⟩

theorem last_2 (c : Dev nD) (g d : Fin 128) :
    (outsAt3 V c 4 lt4).1 (ix2 g d) = 0 + ∑ a : Fin 5, blkS V c (pt a) g d := by
  have s4 := stepB_2 V c (pt 4) (by decide) g d
  have s3 := stepB_2 V c (pt 3) (by decide) g d
  have s2 := stepB_2 V c (pt 2) (by decide) g d
  have s1 := stepB_2 V c (pt 1) (by decide) g d
  have s0 := stepA_2 V c (pt 0) (by decide) g d
  have chain : (outsAt3 V c 4 lt4).1 (ix2 g d)
      = 0 + blkS V c (pt 0) g d + blkS V c (pt 1) g d + blkS V c (pt 2) g d + blkS V c (pt 3) g d + blkS V c (pt 4) g d :=
    s4.trans (congrArg (· + blkS V c (pt 4) g d) (s3.trans (congrArg (· + blkS V c (pt 3) g d)
      (s2.trans (congrArg (· + blkS V c (pt 2) g d) (s1.trans (congrArg (· + blkS V c (pt 1) g d) s0)))))))
  rw [chain, Fin.sum_univ_five]
  simp only [add_assoc]

theorem last_3 (c : Dev nD) (g : Fin 128) :
    (outsAt3 V c 4 lt4).2 (ix2 (0 : Fin 1) g) = 0 + ∑ a : Fin 5, blkC V c (pt a) g := by
  have s4 := stepB_3 V c (pt 4) (by decide) g
  have s3 := stepB_3 V c (pt 3) (by decide) g
  have s2 := stepB_3 V c (pt 2) (by decide) g
  have s1 := stepB_3 V c (pt 1) (by decide) g
  have s0 := stepA_3 V c (pt 0) (by decide) g
  have chain : (outsAt3 V c 4 lt4).2 (ix2 (0 : Fin 1) g)
      = 0 + blkC V c (pt 0) g + blkC V c (pt 1) g + blkC V c (pt 2) g + blkC V c (pt 3) g + blkC V c (pt 4) g :=
    s4.trans (congrArg (· + blkC V c (pt 4) g) (s3.trans (congrArg (· + blkC V c (pt 3) g)
      (s2.trans (congrArg (· + blkC V c (pt 2) g) (s1.trans (congrArg (· + blkC V c (pt 1) g) s0)))))))
  rw [chain, Fin.sum_univ_five]
  simp only [add_assoc]

/-! ## The blocks are the arrays' rows: block `t`'s row `r` is row `10000 t + r` -/

theorem idx_facts : ∀ t : Fin cfg3.N,
    win3_0.index t 0 = t.val ∧ win3_0.index t 1 = 0 ∧ win3_1.index t 0 = t.val ∧ win3_1.index t 1 = 0 :=
  (by decide +kernel : ∀ t : Fin grid3.N,
    win3_0.index t 0 = t.val ∧ win3_0.index t 1 = 0 ∧ win3_1.index t 0 = t.val ∧ win3_1.index t 1 = 0)

theorem row_lt (t : Fin cfg3.N) (r : Fin 10000) : t.val * 10000 + r.val < 50000 := by
  have := t.isLt; have hN : cfg3.N = 5 := N_3; have := r.isLt; omega

theorem hblk_apply (c : Dev nD) (t : Fin cfg3.N) (r : Fin 10000) (d : Fin 128) :
    hblk V c t (ix2 r d) = H V c (ix2 ⟨t.val * 10000 + r.val, row_lt t r⟩ d) := by
  show iblk3 V c 0 t (ix2 r d) = _
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * r.val = t.val * 10000 + r.val; rw [(idx_facts t).1]; omega
  | ⟨1, _⟩ => show win3_0.index t 1 * 128 + 1 * d.val = d.val; rw [(idx_facts t).2.1]; omega

theorem bblk_apply (c : Dev nD) (t : Fin cfg3.N) (r : Fin 10000) :
    bblk V c t (ix2 r (0 : Fin 1)) = B V c (ix2 ⟨t.val * 10000 + r.val, row_lt t r⟩ (0 : Fin 1)) := by
  show iblk3 V c 1 t (ix2 r (0 : Fin 1)) = _
  unfold iblk3
  rw [View.read_apply]
  show V c (Pipeline.arrRef spec3 1) _ = V c (Pipeline.arrRef spec3 1) _
  congr 1
  funext a
  apply Fin.ext
  match a with
  | ⟨0, _⟩ => show win3_1.index t 0 * 10000 + 1 * r.val = t.val * 10000 + r.val; rw [(idx_facts t).2.2.1]; omega
  | ⟨1, _⟩ => show win3_1.index t 1 * 1 + 1 * 0 = 0; rw [(idx_facts t).2.2.2]

/-! ## The five blocks of 10000 rows are the 50000 rows -/

/-- For a graph number below 128 the id word is that number's word exactly when, read signed, it is the number. -/
theorem toInt_ofNat_small (g : Fin 128) : (BitVec.ofNat 32 g.val).toInt = (g.val : Int) := by
  have hg := g.isLt
  rw [BitVec.toInt_eq_toNat_cond, BitVec.toNat_ofNat, Nat.mod_eq_of_lt (by omega)]
  split <;> omega
theorem word_iff (b : BitVec 32) (g : Fin 128) : b = BitVec.ofNat 32 g.val ↔ b.toInt = (g.val : Int) := by
  rw [← toInt_ofNat_small g]
  exact BitVec.toInt_inj.symm

theorem total_2 (c : Dev nD) (g d : Fin 128) :
    ∑ a : Fin 5, blkS V c (pt a) g d
      = ∑ n : Fin 50000, (if (B V c (ix2 n (0 : Fin 1))).toInt = (g.val : Int) then H V c (ix2 n d) else 0) := by
  refine Eq.trans ?_ (sum_fin_mul 5 10000
    (fun n : Fin 50000 => if (B V c (ix2 n (0 : Fin 1))).toInt = (g.val : Int) then H V c (ix2 n d) else (0 : EReal))).symm
  refine Finset.sum_congr rfl fun a _ => ?_
  unfold blkS
  refine Finset.sum_congr rfl fun r _ => ?_
  rw [hblk_apply, bblk_apply]
  exact if_congr (word_iff _ g) rfl rfl

theorem total_3 (c : Dev nD) (g : Fin 128) :
    ∑ a : Fin 5, blkC V c (pt a) g
      = ∑ n : Fin 50000, (if (B V c (ix2 n (0 : Fin 1))).toInt = (g.val : Int) then (1 : EReal) else 0) := by
  refine Eq.trans ?_ (sum_fin_mul 5 10000
    (fun n : Fin 50000 => if (B V c (ix2 n (0 : Fin 1))).toInt = (g.val : Int) then (1 : EReal) else (0 : EReal))).symm
  refine Finset.sum_congr rfl fun a _ => ?_
  unfold blkC
  refine Finset.sum_congr rfl fun r _ => ?_
  rw [bblk_apply]
  exact if_congr (word_iff _ g) rfl rfl

/-! ## The result arrays: each output's one block is its whole array, written back once, after the last point -/

/-- What the feature-sum array and the count array end holding: the buffers' contents after the last point. -/
abbrev res2 (c : Dev nD) : Buf (Elt Ideal) ((c : Thread nD τ).loc main_v138_0) := (outsAt3 V c 4 lt4).1
abbrev res3 (c : Dev nD) : Buf (Elt Ideal) ((c : Thread nD τ).loc main_v138_1) := (outsAt3 V c 4 lt4).2

theorem flushed_eq2 (c : Dev nD) (t : Fin cfg3.N) (hf : (cfg3.win 2).flush t = true) :
    (dat3 V c).flushed 2 t = ((cfg3.win 2).blk t).view.read (Elt Ideal) (res2 V c) := by
  have hN : cfg3.N = 5 := N_3
  have h4 : t.val = 4 := by have := (flush3_2 t).mp hf; have := t.isLt; omega
  obtain rfl : t = t3_4 := Fin.ext h4
  show (cfg3.win 2).cut (grid3.coords t3_4) ((dat3 V c).after 2 t3_4) = _
  rw [after3_2]
  have hz' : (fun a => win3_2.index t3_4 a * main_v138_0.ty.shape.size a) = fun _ => 0 := funext fun a => by fin_cases a <;> decide
  exact (Memref.read_access_unit_zero (Elt Ideal) main_v138_0 hz' (fun a => by rw [congrFun hz' a]; simp) (res2 V c)).symm

theorem flushed_eq3 (c : Dev nD) (t : Fin cfg3.N) (hf : (cfg3.win 3).flush t = true) :
    (dat3 V c).flushed 3 t = ((cfg3.win 3).blk t).view.read (Elt Ideal) (res3 V c) := by
  have hN : cfg3.N = 5 := N_3
  have h4 : t.val = 4 := by have := (flush3_3 t).mp hf; have := t.isLt; omega
  obtain rfl : t = t3_4 := Fin.ext h4
  show (cfg3.win 3).cut (grid3.coords t3_4) ((dat3 V c).after 3 t3_4) = _
  rw [after3_3]
  have hz' : (fun a => win3_3.index t3_4 a * main_v138_1.ty.shape.size a) = fun _ => 0 := funext fun a => by fin_cases a <;> decide
  exact (Memref.read_access_unit_zero (Elt Ideal) main_v138_1 hz' (fun a => by rw [congrFun hz' a]; simp) (res3 V c)).symm

theorem final2 (c : Dev nD) : (dat3 V c).arrAt 2 cfg3.N = res2 V c :=
  (dat3 V c).arrAt_eq_of_cover 2 (res2 V c) (flushed_eq2 V c) fun i =>
    ⟨t3_4, (flush3_2 t3_4).mpr rfl, by
      show i ∈ ((View.whole main_v138_0).slice (win3_2.rect t3_4)).set
      rw [View.set_slice_whole, Rect.mem_set_unit]
      intro a
      have h0 : (i 0 : Nat) < 128 := (i 0).isLt
      have h1 : (i 1 : Nat) < 128 := (i 1).isLt
      match a with
      | ⟨0, _⟩ => show win3_2.index t3_4 0 * win3_2.size 0 ≤ (i 0 : Nat) ∧ (i 0 : Nat) < win3_2.index t3_4 0 * win3_2.size 0 + win3_2.xsize (grid3.coords t3_4) 0
                  rw [show win3_2.index t3_4 0 * win3_2.size 0 = 0 from by decide +kernel, show win3_2.xsize (grid3.coords t3_4) 0 = 128 from by decide +kernel]; omega
      | ⟨1, _⟩ => show win3_2.index t3_4 1 * win3_2.size 1 ≤ (i 1 : Nat) ∧ (i 1 : Nat) < win3_2.index t3_4 1 * win3_2.size 1 + win3_2.xsize (grid3.coords t3_4) 1
                  rw [show win3_2.index t3_4 1 * win3_2.size 1 = 0 from by decide +kernel, show win3_2.xsize (grid3.coords t3_4) 1 = 128 from by decide +kernel]; omega⟩

theorem final3 (c : Dev nD) : (dat3 V c).arrAt 3 cfg3.N = res3 V c :=
  (dat3 V c).arrAt_eq_of_cover 3 (res3 V c) (flushed_eq3 V c) fun i =>
    ⟨t3_4, (flush3_3 t3_4).mpr rfl, by
      show i ∈ ((View.whole main_v138_1).slice (win3_3.rect t3_4)).set
      rw [View.set_slice_whole, Rect.mem_set_unit]
      intro a
      have h0 : (i 0 : Nat) < 1 := (i 0).isLt
      have h1 : (i 1 : Nat) < 128 := (i 1).isLt
      match a with
      | ⟨0, _⟩ => show win3_3.index t3_4 0 * win3_3.size 0 ≤ (i 0 : Nat) ∧ (i 0 : Nat) < win3_3.index t3_4 0 * win3_3.size 0 + win3_3.xsize (grid3.coords t3_4) 0
                  rw [show win3_3.index t3_4 0 * win3_3.size 0 = 0 from by decide +kernel, show win3_3.xsize (grid3.coords t3_4) 0 = 1 from by decide +kernel]; omega
      | ⟨1, _⟩ => show win3_3.index t3_4 1 * win3_3.size 1 ≤ (i 1 : Nat) ∧ (i 1 : Nat) < win3_3.index t3_4 1 * win3_3.size 1 + win3_3.xsize (grid3.coords t3_4) 1
                  rw [show win3_3.index t3_4 1 * win3_3.size 1 = 0 from by decide +kernel, show win3_3.xsize (grid3.coords t3_4) 1 = 128 from by decide +kernel]; omega⟩

/-! ## The two theorems: the pooled sums and counts are the reference's scatters -/

/-- THE FEATURE SUMS. Entry (g, d) of the kernel's array is the sum over all 50000 nodes of graph g of feature d; the
    reference's accumulating row scatter into zeros is the same sum (a node whose id, read signed, is outside
    [0, 128) is dropped on both sides: it equals no graph number's word). -/
theorem sums (c : Dev nD) :
    ((dat3 (F := Ideal) V c).arrAt 2 cfg3.N : Vec Ideal S128x128 .f32)
      = Host.scatterAdd (F := Ideal) Cert.ReferenceIdeal.scatter_S128x128_S50000x1_S50000x128_1_0_0_1
          (broadcastInDim Cert.ReferenceIdeal.S128x128 ![] Cert.ReferenceIdeal.Facts₀.bcast_S_S128x128 (constant (F := Ideal) Cert.ReferenceIdeal.S_ .f32 0x00000000#32))
          (B V c) (H V c) := by
  refine (final2 V c).trans ?_
  funext j
  obtain ⟨g, d, rfl⟩ : ∃ (g d : Fin 128), j = ix2 g d := ⟨j 0, j 1, eq_ix2 j⟩
  refine (last_2 V c g d).trans ?_
  rw [total_2]
  refine Eq.symm ((rowScatterAdd_apply Cert.ReferenceIdeal.Facts₀.scatter_S128x128_S50000x1_S50000x128_1_0_0_1_wf
    (broadcastInDim Cert.ReferenceIdeal.S128x128 ![] Cert.ReferenceIdeal.Facts₀.bcast_S_S128x128 (constant (F := Ideal) Cert.ReferenceIdeal.S_ .f32 0x00000000#32))
    (B V c) (H V c) g d).trans ?_)
  refine congrArg (· + _) ?_
  exact (broadcastInDim_scalar_apply _ _ _).trans Ideal.ofBits_zero_f32

/-- THE COUNTS. Entry (0, g) of the kernel's array is the number of nodes of graph g, as a sum of ones; the
    reference's accumulating scatter of ones into zeros is the same sum. -/
theorem cnts (c : Dev nD) (g : Fin 128) :
    ((dat3 (F := Ideal) V c).arrAt 3 cfg3.N : Vec Ideal S1x128 .f32) (ix2 (0 : Fin 1) g)
      = Host.scatterAdd (F := Ideal) Cert.ReferenceIdeal.scatter_S128_S50000x1_S50000_n_0_0_1
          (broadcastInDim Cert.ReferenceIdeal.S128 ![] Cert.ReferenceIdeal.Facts₀.bcast_S_S128 (constant (F := Ideal) Cert.ReferenceIdeal.S_ .f32 0x00000000#32))
          (B V c)
          (broadcastInDim Cert.ReferenceIdeal.S50000 ![] Cert.ReferenceIdeal.Facts₀.bcast_S_S50000 (constant (F := Ideal) Cert.ReferenceIdeal.S_ .f32 0x3F800000#32))
          (ix1 g) := by
  refine (congrFun (final3 V c) (ix2 (0 : Fin 1) g)).trans ?_
  refine (last_3 V c g).trans ?_
  rw [total_3]
  refine Eq.symm ((vecScatterAdd_apply Cert.ReferenceIdeal.Facts₀.scatter_S128_S50000x1_S50000_n_0_0_1_wf
    (broadcastInDim Cert.ReferenceIdeal.S128 ![] Cert.ReferenceIdeal.Facts₀.bcast_S_S128 (constant (F := Ideal) Cert.ReferenceIdeal.S_ .f32 0x00000000#32))
    (B V c)
    (broadcastInDim Cert.ReferenceIdeal.S50000 ![] Cert.ReferenceIdeal.Facts₀.bcast_S_S50000 (constant (F := Ideal) Cert.ReferenceIdeal.S_ .f32 0x3F800000#32))
    g).trans ?_)
  refine congrArg₂ (· + ·) ((broadcastInDim_scalar_apply _ _ _).trans Ideal.ofBits_zero_f32) ?_
  refine Finset.sum_congr rfl fun r _ => ?_
  rw [show broadcastInDim Cert.ReferenceIdeal.S50000 ![] Cert.ReferenceIdeal.Facts₀.bcast_S_S50000 (constant (F := Ideal) Cert.ReferenceIdeal.S_ .f32 0x3F800000#32) (ix1 r) = (1 : EReal) from
    (broadcastInDim_scalar_apply _ _ _).trans Ideal.ofBits_one_f32]

end Cert.KernelIdeal.Pool

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.Bridge.lean ====
import proofs.«419874_j88905823027257_1_alg».proof.Proof.Gen.KernelIdeal.Frame
import proofs.«419874_j88905823027257_1_alg».proof.Proof.Gen.ReferenceIdeal
import proofs.«419874_j88905823027257_1_alg».proof.Proof.Layer
import proofs.«419874_j88905823027257_1_alg».proof.Proof.LibKeepdims
import Idealize.ShloMosaic.Lib.ValueIdx
import Idealize.ShloMosaic.Lib.ValueIdxRank1
import Idealize.ShloMosaic.Lib.ValueLayout
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

variable {F : FTy → Type} [FloatOps F]

/-- The graph ids as a column: the kernel's program reshapes `[N]` to `[N, 1]`, the reference broadcasts `[N]` along
    a new last axis; both read id `n` at `(n, 0)`. -/
theorem idcol_eq (b : IVec S50000 32) :
    Layer.idcol b = broadcastInDim Cert.ReferenceIdeal.S50000x1 ![0] Cert.ReferenceIdeal.Facts₀.bcast_S50000_S50000x1_0 b := by
  funext j
  obtain ⟨n, u, rfl⟩ : ∃ (n : Fin 50000) (u : Fin 1), j = ix2 n u := ⟨j 0, j 1, eq_ix2 j⟩
  unfold Layer.idcol
  exact (Cert.LibKeepdims.shapeCast_a_a1_apply b shapeCasts_S50000_S50000x1 n u).trans
    (Cert.LibKeepdims.broadcastInDim_a_a1_apply b Cert.ReferenceIdeal.Facts₀.bcast_S50000_S50000x1_0 n u).symm

/-- The counts as a column, floored at one: the kernel's program holds them as a row `[1, G]` and reshapes
    `max row 1` to `[G, 1]`; the reference holds them as `[G]` and broadcasts `max vector 1` along a new last axis.
    When the row and the vector agree entry by entry the two columns are one. -/
theorem countcol_eq (row : FVec F S1x128 .f32) (vec : FVec F Cert.ReferenceIdeal.S128 .f32)
    (h : ∀ g : Fin 128, row (ix2 (0 : Fin 1) g) = vec (ix1 g)) :
    shapeCast S128x1 (maximumf row (broadcastInDim S1x128 ![] bcast_S_S1x128 (constant (F := F) S_ .f32 0x3F800000#32))) shapeCasts_S1x128_S128x1
      = broadcastInDim Cert.ReferenceIdeal.S128x1 ![0] Cert.ReferenceIdeal.Facts₀.bcast_S128_S128x1_0
          (maximumf vec (broadcastInDim Cert.ReferenceIdeal.S128 ![] Cert.ReferenceIdeal.Facts₀.bcast_S_S128 (constant (F := F) Cert.ReferenceIdeal.S_ .f32 0x3F800000#32))) := by
  funext j
  obtain ⟨g, u, rfl⟩ : ∃ (g : Fin 128) (u : Fin 1), j = ix2 g u := ⟨j 0, j 1, eq_ix2 j⟩
  have hu : u.val = 0 := by omega
  -- the column's entry (g, 0) is the row's entry (0, g): the same row-major position
  refine (shapeCast_apply _ shapeCasts_S1x128_S128x1 (ix2 g u) (ix2 (0 : Fin 1) g) ?_).trans ?_
  · rw [Shape.rowMajor_val_two, Shape.rowMajor_val_two]
    show 0 * 128 + g.val = g.val * 1 + u.val
    omega
  · refine Eq.trans ?_ (Cert.LibKeepdims.broadcastInDim_a_a1_apply _ Cert.ReferenceIdeal.Facts₀.bcast_S128_S128x1_0 g u).symm
    -- the maximum is taken entry by entry, and the broadcast scalar reads the same word on both sides
    show FloatOps.maximumf (row (ix2 (0 : Fin 1) g))
          (broadcastInDim S1x128 ![] bcast_S_S1x128 (constant (F := F) S_ .f32 0x3F800000#32) (ix2 (0 : Fin 1) g))
        = FloatOps.maximumf (vec (ix1 g))
          (broadcastInDim Cert.ReferenceIdeal.S128 ![] Cert.ReferenceIdeal.Facts₀.bcast_S_S128 (constant (F := F) Cert.ReferenceIdeal.S_ .f32 0x3F800000#32) (ix1 g))
    rw [Cert.LibKeepdims.broadcastInDim_scalar_apply, Cert.LibKeepdims.broadcastInDim_scalar_apply, h g]

end Cert.KernelIdeal.Bridge

end
-- ==== Proof.Value.lean ====
import proofs.«419874_j88905823027257_1_alg».proof.Proof.Gen.KernelIdeal.Frame
import proofs.«419874_j88905823027257_1_alg».proof.Proof.Gen.ReferenceIdeal
import proofs.«419874_j88905823027257_1_alg».proof.Proof.Layer
import proofs.«419874_j88905823027257_1_alg».proof.Proof.Walk
import proofs.«419874_j88905823027257_1_alg».proof.Proof.Feat
import proofs.«419874_j88905823027257_1_alg».proof.Proof.Bridge
import proofs.«419874_j88905823027257_1_alg».proof.Proof.RefForm

/-!
  The value of the kernel's program over the extended reals, as the reference's functions of the arguments.

  Read from the launch forward: the first region leaves the product `x · W1` (a row-blocked product is the whole one),
  the host stretch after it the first layer and `relu` of that; the second and third regions and stretches repeat this
  with `W2`, `W3` (no `relu` after the third); the pooling region leaves, per graph, the sum of the features and the
  number of its nodes (a one-hot product summed block by block is the sum over the nodes of the graph), and the last
  stretch divides, multiplies by `Wlin` and adds `blin`. Every step reads its inputs where the step before left them;
  the arguments and the two endpoint lists are unchanged wherever they are read.
-/

set_option maxRecDepth 16384

noncomputable section

namespace Cert.KernelIdeal.Value

open Cert.KernelIdeal Cert.KernelIdeal.Gen Cert.KernelIdeal.Layer Cert.KernelIdeal.Walk
open Idealize.ShloMosaic Idealize.ShloMosaic.TcCoe Idealize.SL.Sem Idealize.ShloMosaic.StableHlo Idealize.ShloMosaic.ValueIdx
open Cert.ReferenceIdeal.Form (dotN idcolR sumsR cntsR countcolR headR)

variable (m : (ℓ : Loc nD τ sig) → Buf (Elt Ideal) ℓ) (ρ : Dev nD → PrngReg)

/-! ## The three products and the layers between them -/

/-- Region 0 leaves `x · W1`. -/
theorem prod1 (c : Dev nD) : W2 m ρ c (Proc.devRef .tc main_v4) = dotN (F := Ideal) (m ((c : Thread nD τ).loc main_arg0)) (m ((c : Thread nD τ).loc main_arg3)) := by
  refine (W2_arr m ρ c 2).trans ((Feat.region0 (V1 m ρ) c).trans ?_)
  show dotN (F := Ideal) (W1 m ρ c (Proc.devRef .tc main_arg0)) (W1 m ρ c (Proc.devRef .tc main_arg3)) = _
  rw [arg0_at1, arg3_at1]

/-- What the second region reads: the first layer and `relu` of the first product. -/
theorem feat1 (c : Dev nD) :
    W5 m ρ c (Proc.devRef .tc main_v48)
      = relu (F := Ideal) (conv (dotN (m ((c : Thread nD τ).loc main_arg0)) (m ((c : Thread nD τ).loc main_arg3))) (ends (src (m ((c : Thread nD τ).loc main_arg1)))) (ends (dst (m ((c : Thread nD τ).loc main_arg1)))) (m ((c : Thread nD τ).loc main_arg4))) := by
  rw [layer1, prod1, src_at2, dst_at2, arg4_at2]

/-- Region 1 leaves the product of that with `W2`. -/
theorem prod2 (c : Dev nD) :
    W6 m ρ c (Proc.devRef .tc main_v49)
      = dotN (F := Ideal) (relu (conv (dotN (m ((c : Thread nD τ).loc main_arg0)) (m ((c : Thread nD τ).loc main_arg3))) (ends (src (m ((c : Thread nD τ).loc main_arg1)))) (ends (dst (m ((c : Thread nD τ).loc main_arg1)))) (m ((c : Thread nD τ).loc main_arg4)))) (m ((c : Thread nD τ).loc main_arg5)) := by
  refine (W6_arr m ρ c 2).trans ((Feat.region1 (V5 m ρ) c).trans ?_)
  show dotN (F := Ideal) (W5 m ρ c (Proc.devRef .tc main_v48)) (W5 m ρ c (Proc.devRef .tc main_arg5)) = _
  rw [feat1, arg5_at5]

theorem feat2 (c : Dev nD) :
    W9 m ρ c (Proc.devRef .tc main_v93)
      = relu (F := Ideal) (conv (dotN (relu (conv (dotN (m ((c : Thread nD τ).loc main_arg0)) (m ((c : Thread nD τ).loc main_arg3))) (ends (src (m ((c : Thread nD τ).loc main_arg1)))) (ends (dst (m ((c : Thread nD τ).loc main_arg1)))) (m ((c : Thread nD τ).loc main_arg4)))) (m ((c : Thread nD τ).loc main_arg5)))
          (ends (src (m ((c : Thread nD τ).loc main_arg1)))) (ends (dst (m ((c : Thread nD τ).loc main_arg1)))) (m ((c : Thread nD τ).loc main_arg6))) := by
  rw [layer2, prod2, src_at6, dst_at6, arg6_at6]

theorem prod3 (c : Dev nD) :
    W10 m ρ c (Proc.devRef .tc main_v94)
      = dotN (F := Ideal) (relu (conv (dotN (relu (conv (dotN (m ((c : Thread nD τ).loc main_arg0)) (m ((c : Thread nD τ).loc main_arg3))) (ends (src (m ((c : Thread nD τ).loc main_arg1)))) (ends (dst (m ((c : Thread nD τ).loc main_arg1)))) (m ((c : Thread nD τ).loc main_arg4)))) (m ((c : Thread nD τ).loc main_arg5)))
          (ends (src (m ((c : Thread nD τ).loc main_arg1)))) (ends (dst (m ((c : Thread nD τ).loc main_arg1)))) (m ((c : Thread nD τ).loc main_arg6)))) (m ((c : Thread nD τ).loc main_arg7)) := by
  refine (W10_arr m ρ c 2).trans ((Feat.region2 (V9 m ρ) c).trans ?_)
  show dotN (F := Ideal) (W9 m ρ c (Proc.devRef .tc main_v93)) (W9 m ρ c (Proc.devRef .tc main_arg7)) = _
  rw [feat2, arg7_at9]

/-- What the pooling region reads as node features: the three layers over the three products. -/
theorem feat3 (c : Dev nD) :
    W13 m ρ c (Proc.devRef .tc main_v136)
      = feats (F := Ideal) dotN (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [layer3, prod3, src_at10, dst_at10, arg8_at10]; rfl

/-- What it reads as graph ids: the ids as a column. -/
theorem ids (c : Dev nD) : W13 m ρ c (Proc.devRef .tc main_v137) = idcolR (m ((c : Thread nD τ).loc main_arg2)) := by
  rw [ids3, arg2_at10]; exact Bridge.idcol_eq _

/-! ## The pooled result -/

section Pooled
/- What the pooling region leaves, for any contents it is entered with (proved with the region's own run). -/
variable
  (hsums : ∀ (V : (c : Dev nD) → (b : Ref sig .tc) → Buf (Elt Ideal) ((c : Thread nD τ).loc b)) (c : Dev nD),
    ((dat3 (F := Ideal) V c).arrAt 2 cfg3.N : Vec Ideal S128x128 .f32)
      = Host.scatterAdd (F := Ideal) Cert.ReferenceIdeal.scatter_S128x128_S50000x1_S50000x128_1_0_0_1
          (broadcastInDim Cert.ReferenceIdeal.S128x128 ![] Cert.ReferenceIdeal.Facts₀.bcast_S_S128x128 (constant (F := Ideal) Cert.ReferenceIdeal.S_ .f32 0x00000000#32))
          (V c (Pipeline.arrRef spec3 1)) (V c (Pipeline.arrRef spec3 0)))
  (hcnts : ∀ (V : (c : Dev nD) → (b : Ref sig .tc) → Buf (Elt Ideal) ((c : Thread nD τ).loc b)) (c : Dev nD) (g : Fin 128),
    ((dat3 (F := Ideal) V c).arrAt 3 cfg3.N : Vec Ideal S1x128 .f32) (ix2 (0 : Fin 1) g)
      = Host.scatterAdd (F := Ideal) Cert.ReferenceIdeal.scatter_S128_S50000x1_S50000_n_0_0_1
          (broadcastInDim Cert.ReferenceIdeal.S128 ![] Cert.ReferenceIdeal.Facts₀.bcast_S_S128 (constant (F := Ideal) Cert.ReferenceIdeal.S_ .f32 0x00000000#32))
          (V c (Pipeline.arrRef spec3 1))
          (broadcastInDim Cert.ReferenceIdeal.S50000 ![] Cert.ReferenceIdeal.Facts₀.bcast_S_S50000 (constant (F := Ideal) Cert.ReferenceIdeal.S_ .f32 0x3F800000#32))
          (ix1 g))

include hsums in
/-- The pooling region leaves the per-graph sums of the node features. -/
theorem sums (c : Dev nD) :
    W14 m ρ c (Proc.devRef .tc main_v138_0)
      = sumsR (F := Ideal) (m ((c : Thread nD τ).loc main_arg2)) (feats dotN (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W14_arr m ρ c 2).trans ((hsums (V13 m ρ) c).trans ?_)
  show Host.scatterAdd (F := Ideal) _ _ (W13 m ρ c (Proc.devRef .tc main_v137)) (W13 m ρ c (Proc.devRef .tc main_v136)) = _
  rw [ids, feat3]; rfl

include hcnts in
/-- … and, as a row, the per-graph node counts. -/
theorem cnts (c : Dev nD) (g : Fin 128) :
    (W14 m ρ c (Proc.devRef .tc main_v138_1) : Vec Ideal S1x128 .f32) (ix2 (0 : Fin 1) g) = cntsR (F := Ideal) (m ((c : Thread nD τ).loc main_arg2)) (ix1 g) := by
  refine (congrFun (W14_arr m ρ c 3) _).trans ((hcnts (V13 m ρ) c g).trans ?_)
  show Host.scatterAdd (F := Ideal) _ _ (W13 m ρ c (Proc.devRef .tc main_v137)) _ (ix1 g) = _
  rw [ids]; rfl

include hsums hcnts in
/-- THE VALUE: the program's result is the reference's head of the pooled features. -/
theorem result (c : Dev nD) :
    W15 m ρ c (Proc.devRef .tc main_v147)
      = headR (F := Ideal) (sumsR (m ((c : Thread nD τ).loc main_arg2)) (feats dotN (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
          (countcolR (cntsR (m ((c : Thread nD τ).loc main_arg2)))) (m ((c : Thread nD τ).loc main_arg9)) (m ((c : Thread nD τ).loc main_arg10)) := by
  rw [Layer.tail, sums m ρ hsums, arg9_at14, arg10_at14]
  unfold Layer.pooled
  rw [Bridge.countcol_eq _ _ (cnts m ρ hcnts c)]
  rfl

end Pooled

end Cert.KernelIdeal.Value

end
-- ==== Proof.lean ====
/-
  A three-layer graph convolution with mean pooling, against its plain reference, over the extended reals.

  Both programs compute, for node features `x : [N, 128]`, an edge list, graph ids and weights,
  `head (pool (layer₃ (relu (layer₂ (relu (layer₁ x))))))`, where a layer multiplies the features by its weight matrix and
  aggregates them along the edges with the symmetric degree normalisation, `pool` takes the mean of the node features
  per graph, and `head` is a last linear map. The host code around the matrix products is the same in both. They
  differ in two places. The kernel's program computes each `[N, 128] × [128, 128]` product in a kernel, five row blocks
  of 10000 rows with the operands cast to a narrower float format first; over the extended reals the cast is the
  identity and a row of a product depends on that row of the left factor only, so the blocks laid side by side are the
  whole product (`Feat`). And it pools in a kernel: per block a one-hot matrix of the graph ids is multiplied with
  the block and its columns are summed, both accumulated over the five blocks from zero; since `0 · x = 0` and
  `1 · x = x` for every extended real `x`, and sums may be regrouped freely, that is the sum over the nodes of each graph
  and their number, which is what the reference's two scatter-adds by graph id give, a node whose id is outside
  `[0, G)` being left out on both sides (`Pool`). No step uses that the inputs are finite.

  The kernel's run is read through the boundaries of its program (`ResultRun`, `Layer`, `Walk`, `Value`), the
  reference's through its generated run (`RefRun`, `RefForm`); both results are one function of the arguments.
-/
import proofs.«419874_j88905823027257_1_alg».proof.Defs
import proofs.«419874_j88905823027257_1_alg».proof.Proof.Gen.Kernel
import proofs.«419874_j88905823027257_1_alg».proof.Proof.Gen.Kernel.Frame
import proofs.«419874_j88905823027257_1_alg».proof.Proof.Gen.KernelIdeal
import proofs.«419874_j88905823027257_1_alg».proof.Proof.Gen.KernelIdeal.Frame
import proofs.«419874_j88905823027257_1_alg».proof.Proof.Gen.ReferenceIdeal
import proofs.«419874_j88905823027257_1_alg».proof.Proof.Gen.Pre_finite_inputs
import proofs.«419874_j88905823027257_1_alg».proof.Proof.ResultRun
import proofs.«419874_j88905823027257_1_alg».proof.Proof.RefRun
import proofs.«419874_j88905823027257_1_alg».proof.Proof.RefForm
import proofs.«419874_j88905823027257_1_alg».proof.Proof.Feat
import proofs.«419874_j88905823027257_1_alg».proof.Proof.Pool
import proofs.«419874_j88905823027257_1_alg».proof.Proof.Value
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization applied no rewrite: nothing to preserve. -/
theorem preserves : Cert.preserves_Kernel_KernelIdeal := trivial

/-- From memories that agree on the arguments both programs end with the same result: the kernel's program at the
    contents of its result buffer at the last boundary, which is the reference's function of the arguments
    (`Value.result`), and the reference at its composed term, which is that same function (`Form.res_form`). -/
theorem algebraic : Cert.algebraic_KernelIdeal_ReferenceIdeal := by
  intro m g m' g' _ hagree
  refine ⟨fun c => Cert.KernelIdeal.Gen.W15 m g c (Proc.devRef .tc Cert.KernelIdeal.main_v147),
    Cert.KernelIdeal.ResultRun.run (F := Ideal) m g, ?_⟩
  refine (θ_run Cert.ReferenceIdeal.defs _ _).mono (fun _ h c => ⟨(h c).1.trans ?_, (h c).2⟩)
    (Cert.ReferenceIdeal.ValueP.run (F := Ideal) m' g')
  obtain ⟨h0, h1, h2, h3, h4, h5, h6, h7, h8, h9, h10⟩ := hagree c
  rw [Cert.ReferenceIdeal.Form.res_form, h0, h1, h2, h3, h4, h5, h6, h7, h8, h9, h10]
  exact (Cert.KernelIdeal.Value.result m g Cert.KernelIdeal.Pool.sums Cert.KernelIdeal.Pool.cnts c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
